-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) (main_arg2 : IVec S8192 32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S_ : Shape := ⟨0, ![]⟩
abbrev S8192x1 : Shape := ⟨2, ![8192, 1]⟩
abbrev S8x1024 : Shape := ⟨2, ![8, 1024]⟩
abbrev S8x1 : Shape := ⟨2, ![8, 1]⟩
abbrev S8 : Shape := ⟨1, ![8]⟩
abbrev S1x8192 : Shape := ⟨2, ![1, 8192]⟩
abbrev S8x8x128 : Shape := ⟨3, ![8, 8, 128]⟩
abbrev S1024x1 : Shape := ⟨2, ![1024, 1]⟩
abbrev S1x1024 : Shape := ⟨2, ![1, 1024]⟩
abbrev S1x8x128 : Shape := ⟨3, ![1, 8, 128]⟩
abbrev S1x1 : Shape := ⟨2, ![1, 1]⟩
abbrev S1 : Shape := ⟨1, ![1]⟩
abbrev S1024x1024 : Shape := ⟨2, ![1024, 1024]⟩
abbrev S1024 : Shape := ⟨1, ![1024]⟩
abbrev S1x1x1 : Shape := ⟨3, ![1, 1, 1]⟩
abbrev S8x1x1 : Shape := ⟨3, ![8, 1, 1]⟩

abbrev nBuf : Space → Nat
  | .hbm => 60
  | .vmem => 18
  | .smem => 2
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192, .f32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S8192x1, .i32⟩
  | .hbm, ⟨23, _⟩ => ⟨S8192, .f32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .i32⟩
  | .hbm, ⟨31, _⟩ => ⟨S8192x1, .i32⟩
  | .hbm, ⟨32, _⟩ => ⟨S8192, .i32⟩
  | .hbm, ⟨33, _⟩ => ⟨S8x1024, .i32⟩
  | .hbm, ⟨34, _⟩ => ⟨S8x1, .i32⟩
  | .hbm, ⟨35, _⟩ => ⟨S8x1, .i32⟩
  | .hbm, ⟨36, _⟩ => ⟨S8192x1, .f32⟩
  | .hbm, ⟨37, _⟩ => ⟨S1x8192, .f32⟩
  | .hbm, ⟨38, _⟩ => ⟨S8192x1, .f32⟩
  | .hbm, ⟨39, _⟩ => ⟨S1x8192, .f32⟩
  | .hbm, ⟨40, _⟩ => ⟨S8192x1, .i32⟩
  | .hbm, ⟨41, _⟩ => ⟨S1x8192, .i32⟩
  | .hbm, ⟨42, _⟩ => ⟨S8x8x128, .f32⟩
  | .hbm, ⟨43, _⟩ => ⟨S8x8x128, .i32⟩
  | .hbm, ⟨44, _⟩ => ⟨S8x1x1, .f32⟩
  | .hbm, ⟨45, _⟩ => ⟨S8, .f32⟩
  | .hbm, ⟨46, _⟩ => ⟨S_, .f32⟩
  | .hbm, ⟨47, _⟩ => ⟨S_, .f32⟩
  | .hbm, ⟨48, _⟩ => ⟨S8x1x1, .i32⟩
  | .hbm, ⟨49, _⟩ => ⟨S8, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .f32⟩
  | .hbm, ⟨55, _⟩ => ⟨S_, .i32⟩
  | .hbm, ⟨56, _⟩ => ⟨S_, .i1⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1x8x128, .f32⟩
  | .local _ .vmem, ⟨13, _⟩ => ⟨S1x8x128, .f32⟩
  | .local _ .vmem, ⟨14, _⟩ => ⟨S1x8x128, .i32⟩
  | .local _ .vmem, ⟨15, _⟩ => ⟨S1x8x128, .i32⟩
  | .local _ .vmem, ⟨16, _⟩ => ⟨S1x1, .f32⟩
  | .local _ .vmem, ⟨17, _⟩ => ⟨S1x1, .i32⟩
  | .local _ .smem, ⟨0, _⟩ => ⟨S8, .i32⟩
  | .local _ .smem, ⟨1, _⟩ => ⟨S8, .i32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v25 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev main_v34 : Ref sig .tc := ⟨.hbm, 44, rfl⟩
abbrev main_v35 : Ref sig .tc := ⟨.hbm, 45, rfl⟩
abbrev main_cst : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_c_6 : Ref sig .tc := ⟨.hbm, 52, rfl⟩
abbrev main_v40 : Ref sig .tc := ⟨.hbm, 53, rfl⟩
abbrev main_v41 : Ref sig .tc := ⟨.hbm, 54, rfl⟩
abbrev main_c_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v24 : Ref sig .tc := ⟨.smem, 0, rfl⟩
abbrev main_v26 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

abbrev pre0 : Pipeline.Prefetch sig := ⟨2, ![main_v24.idx, main_v26.idx], fun | 0 => main_v24.names | 1 => main_v26.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_off2 (i : grid0.Coords) : Fin 1 → Nat :=
  let arg1 : BitVec 32 := BitVec.ofNat 32 (i 1).val
  let v7 : Index := Scalar.indexCast arg1
  ![v7.toNat]
def k0_cond3 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_2 : BitVec 32 := 0#32
  let v18 : BitVec 1 := Scalar.cmpi .ne v17 c0_i32_2
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S8x1024 : S8192.ShapeCasts S8x1024
  slices_S8x1024_S8x1_0_0 : S8x1024.Slices ![0, 0] S8x1
  shapeCasts_S8x1_S8 : S8x1.ShapeCasts S8
  slices_S8x1024_S8x1_0_1023 : S8x1024.Slices ![0, 1023] S8x1
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  numel1_S1 : S1.numel = 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  gather_S8192_S8192x1_S8192_n_0_n_n_0_1_1_wf : GatherDims.WF S8192 S8192x1 S8192 [] [0] [] [0] [] 1 ![1]
  hrank0 : 0 < grid0.rank
  k0_off1_inb : ∀ i : grid0.Coords, ∀ a, (k0_off1 i) a + S1.size a ≤ S8.size a
  k0_off2_inb : ∀ i : grid0.Coords, ∀ a, (k0_off2 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S8x8x128.size a
  hwx0_6 : ∀ i : grid0.Coords, EltTy.bits .f32 = 32 ∨ (Rect.block (s := S8x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S8x8x128.size a
  hwx0_7 : ∀ i : grid0.Coords, EltTy.bits .i32 = 32 ∨ (Rect.block (s := S8x8x128) S1x8x128.size (cc0_transform_7 i) (hinb0_7 i)).WholeWords (EltTy.packing .i32)

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf

abbrev spec0_0 : Pipeline.WinSpec sig grid0.rank :=
  Pipeline.WinSpec.ofSpec (Memref.whole main_v27) S1024x1.size reads0_0 false false 2 stage0_0 sem0_0 nbuf0_0 hstage0_0

abbrev spec0_1 : Pipeline.WinSpec sig grid0.rank :=
  Pipeline.WinSpec.ofSpec (Memref.whole main_v28) S1x1024.size reads0_1 false false 2 stage0_1 sem0_1 nbuf0_1 hstage0_1

abbrev spec0_2 : Pipeline.WinSpec sig grid0.rank :=
  Pipeline.WinSpec.ofSpec (Memref.whole main_v29) S1024x1.size reads0_2 false false 2 stage0_2 sem0_2 nbuf0_2 hstage0_2

abbrev spec0_3 : Pipeline.WinSpec sig grid0.rank :=
  Pipeline.WinSpec.ofSpec (Memref.whole main_v30) S1x1024.size reads0_3 false false 2 stage0_3 sem0_3 nbuf0_3 hstage0_3

abbrev spec0_4 : Pipeline.WinSpec sig grid0.rank :=
  Pipeline.WinSpec.ofSpec (Memref.whole main_v31) S1024x1.size reads0_4 false false 2 stage0_4 sem0_4 nbuf0_4 hstage0_4

abbrev spec0_5 : Pipeline.WinSpec sig grid0.rank :=
  Pipeline.WinSpec.ofSpec (Memref.whole main_v32) S1x1024.size reads0_5 false false 2 stage0_5 sem0_5 nbuf0_5 hstage0_5

abbrev spec0_6 : Pipeline.WinSpec sig grid0.rank :=
  Pipeline.WinSpec.ofSpec (Memref.whole main_v33_0) S1x8x128.size reads0_6 true false 2 stage0_6 sem0_6 nbuf0_6 hstage0_6

abbrev spec0_7 : Pipeline.WinSpec sig grid0.rank :=
  Pipeline.WinSpec.ofSpec (Memref.whole main_v33_1) S1x8x128.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | ⟨_ + 8, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | ⟨_ + 8, h⟩ => absurd h (Nat.not_lt.2 (Nat.le_add_left _ _))
abbrev idle0 : Fin 8 → grid0.Coords → Bool := fun | 0 => fun _ => false | 1 => fun _ => false | 2 => fun _ => false | 3 => fun _ => false | 4 => fun _ => false | 5 => fun _ => false | 6 => fun i => !(k0_cond3 i == 1#1) | 7 => fun i => !(k0_cond3 i == 1#1) | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .i32⟩
  | .hbm, ⟨3, _⟩ => ⟨S8192x1, .i32⟩
  | .hbm, ⟨4, _⟩ => ⟨S1x8192, .i32⟩
  | .hbm, ⟨5, _⟩ => ⟨S8192x8192, .i32⟩
  | .hbm, ⟨6, _⟩ => ⟨S8192x8192, .i32⟩
  | .hbm, ⟨7, _⟩ => ⟨S8192x8192, .i1⟩
  | .hbm, ⟨8, _⟩ => ⟨S8192x8192, .i32⟩
  | .hbm, ⟨9, _⟩ => ⟨S8192x8192, .i32⟩
  | .hbm, ⟨10, _⟩ => ⟨S_, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x8192, .i1⟩
  | .hbm, ⟨15, _⟩ => ⟨S8192x1, .f32⟩
  | .hbm, ⟨16, _⟩ => ⟨S1x8192, .f32⟩
  | .hbm, ⟨17, _⟩ => ⟨S_, .f32⟩
  | .hbm, ⟨18, _⟩ => ⟨S1x8192, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x8192, .i1⟩
  | .hbm, ⟨23, _⟩ => ⟨S8192x8192, .i1⟩
  | .hbm, ⟨24, _⟩ => ⟨S8192x8192, .i1⟩
  | .hbm, ⟨25, _⟩ => ⟨S8192x1, .f32⟩
  | .hbm, ⟨26, _⟩ => ⟨S1x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .i32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S_, .f32⟩
  | .hbm, ⟨45, _⟩ => ⟨S_, .i32⟩
  | .hbm, ⟨46, _⟩ => ⟨S_, .i32⟩
  | .hbm, ⟨47, _⟩ => ⟨S_, .f32⟩
  | .hbm, ⟨48, _⟩ => ⟨S_, .i32⟩
  | .hbm, ⟨49, _⟩ => ⟨S_, .i1⟩
  | .hbm, ⟨50, _⟩ => ⟨S_, .f32⟩
  | .hbm, ⟨51, _⟩ => ⟨S_, .f32⟩
  | .hbm, ⟨52, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_2 : Ref sig .tc := ⟨.hbm, 37, rfl⟩
abbrev main_v30 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S_S1x8192 : S_.BroadcastsInDim S1x8192 (![] : Fin 0 → Fin S1x8192.rank)
  natLt_1_32 : 1 < 32
  reducesTo_S8192x8192_S_d0_1 : S8192x8192.ReducesTo [0, 1] S_
  h_S_ : 0 < S_.numel

variable [Facts₀]

class Facts : Prop extends Facts₀ where

variable [Facts]
-- ==== Proof.Spec.lean ====
/-
  The mathematics of the pairwise ranking loss, apart from both programs.

  For predictions `p`, targets `t` (extended reals) and group ids `d` (32-bit words) over 8192 positions, an ordered
  pair `(a, b)` is RANKED when the two positions share a group id and `t a` exceeds `t b` by more than `eps`
  (so `a ≠ b` follows: `eps` is positive). The loss sums, over the ranked pairs, the hinge
  `max (1/2 − (p a − p b)) 0`; the count is the number of ranked pairs; the result divides the one by the other
  (by 1 when there is no pair, where the result is 0).
-/
import Idealize.ShloMosaic.PureOps.Ideal
import Idealize.ShloMosaic.Lib.SortFacts

noncomputable section

namespace Cert.PairRank

open Idealize.ShloMosaic

/-- The threshold by which a target must exceed another (the f32 nearest 1e-6, read exactly). -/
def eps : EReal := Ideal.ofBits .f32 0x358637BD#32
/-- The margin 1/2. -/
def half : EReal := Ideal.ofBits .f32 0x3F000000#32

/-- The position `1024·i + r` of row `r` of tile `i`. -/
def tileIx (i : Fin 8) (r : Fin 1024) : Fin 8192 := ⟨1024 * i.val + r.val, by omega⟩

section
variable (p t : Fin 8192 → EReal) (d : Fin 8192 → BitVec 32)

/-- `(a, b)` is a ranked pair: one group, and `t a` above `t b + eps`. -/
def Ranked (a b : Fin 8192) : Prop := d a = d b ∧ t b + eps < t a

open Classical in
/-- The hinge summed over the ranked pairs. -/
def lossSum : EReal := ∑ a : Fin 8192, ∑ b : Fin 8192, if Ranked t d a b then max (half - (p a - p b)) 0 else 0

open Classical in
/-- The number of ranked pairs. -/
def pairCount : ℕ := ∑ a : Fin 8192, ∑ b : Fin 8192, if Ranked t d a b then 1 else 0

end

/-- What both programs do last with the sum `s` and the count `c` (a 32-bit word): `0` when `c = 0`, else `s` divided by
    `max c 1` as a float. Kept as one function of `(s, c)`: both sides end in it, and it is never opened. -/
def finish (s : FVec Ideal (⟨0, ![]⟩ : Shape) .f32) (c : IVec (⟨0, ![]⟩ : Shape) 32) : FVec Ideal (⟨0, ![]⟩ : Shape) .f32 :=
  select (cmpi .eq c (constantI (⟨0, ![]⟩ : Shape) 32 0#32)) (constant (F := Ideal) (⟨0, ![]⟩ : Shape) .f32 0x00000000#32)
    (Host.divf (F := Ideal) s (sitofp (F := Ideal) .f32 (maxsi c (constantI (⟨0, ![]⟩ : Shape) 32 1#32))))

/-- The result both programs compute, as a function of the three argument arrays. -/
def result (p t : FVec Ideal (⟨1, ![8192]⟩ : Shape) .f32) (d : IVec (⟨1, ![8192]⟩ : Shape) 32) :
    FVec Ideal (⟨0, ![]⟩ : Shape) .f32 :=
  finish (fun _ => lossSum (fun a => p (Shape.Idx.ofFin a)) (fun a => t (Shape.Idx.ofFin a)) (fun a => d (Shape.Idx.ofFin a)))
    (fun _ => BitVec.ofNat 32 (pairCount (fun a => t (Shape.Idx.ofFin a)) (fun a => d (Shape.Idx.ofFin a))))

end Cert.PairRank

end
-- ==== Proof.TiledSum.lean ====
/-
  Sums over all ordered pairs of 8192 positions, rearranged: the positions renumbered by a bijection `σ` under which a
  key is non-decreasing, the pair space cut into 8 × 8 tiles of 1024 × 1024, and every tile whose two key ranges do not
  meet left out — for a summand that vanishes on pairs of unequal keys, nothing is lost.
-/
import proofs.«417551_j53944789238504_3_alg».proof.Proof.Spec
import Mathlib.Algebra.BigOperators.Fin
import Mathlib.Algebra.BigOperators.Group.Finset.Basic
import Mathlib.Logic.Equiv.Fin.Basic

noncomputable section

namespace Cert.PairRank

open Idealize.ShloMosaic

/-- The key ranges of tiles `i` and `j` of the renumbered positions meet: the first key of `j` is at most the last of `i`,
    and the first of `i` at most the last of `j`. -/
def Overlap (key : Fin 8192 → ℤ) (σ : Fin 8192 → Fin 8192) (i j : Fin 8) : Prop :=
  key (σ (tileIx j 0)) ≤ key (σ (tileIx i 1023)) ∧ key (σ (tileIx i 0)) ≤ key (σ (tileIx j 1023))

/-- Positions are tile-and-row pairs: `a ↦ (a / 1024, a % 1024)` inverts `(i, r) ↦ 1024·i + r`. -/
def tileEquiv : Fin 8 × Fin 1024 ≃ Fin 8192 where
  toFun p := tileIx p.1 p.2
  invFun a := (⟨a.val / 1024, by omega⟩, ⟨a.val % 1024, by omega⟩)
  left_inv := by
    rintro ⟨i, r⟩
    apply Prod.ext <;> apply Fin.ext <;> simp only [tileIx] <;> omega
  right_inv := by
    intro a
    apply Fin.ext
    simp only [tileIx]
    omega

/-- A sum over tiles and rows is a sum over positions. -/
theorem sum_tiles {M : Type} [AddCommMonoid M] (g : Fin 8192 → M) :
    (∑ i : Fin 8, ∑ r : Fin 1024, g (tileIx i r)) = ∑ a : Fin 8192, g a := by
  rw [← Fintype.sum_prod_type']
  exact tileEquiv.sum_comp g

/-- Row 0 is the first position of its tile. -/
theorem tileIx_zero_le (i : Fin 8) (r : Fin 1024) : tileIx i 0 ≤ tileIx i r := by
  rw [Fin.le_def]
  simp only [tileIx, Fin.val_zero]
  omega

/-- Row 1023 is the last position of its tile. -/
theorem tileIx_le_last (i : Fin 8) (r : Fin 1024) : tileIx i r ≤ tileIx i 1023 := by
  rw [Fin.le_def]
  have h : ((1023 : Fin 1024) : ℕ) = 1023 := rfl
  simp only [tileIx, h]
  omega

open Classical in
/-- The tiled, pruned, renumbered double sum is the plain double sum. -/
theorem tiled_sum_eq {M : Type} [AddCommMonoid M] (f : Fin 8192 → Fin 8192 → M) (key : Fin 8192 → ℤ)
    (σ : Fin 8192 → Fin 8192) (hσ : Function.Bijective σ)
    (hsorted : ∀ a b : Fin 8192, a ≤ b → key (σ a) ≤ key (σ b))
    (hf : ∀ a b : Fin 8192, key a ≠ key b → f a b = 0) :
    (∑ i : Fin 8, ∑ j : Fin 8, if Overlap key σ i j then
        ∑ r : Fin 1024, ∑ s : Fin 1024, f (σ (tileIx i r)) (σ (tileIx j s)) else 0)
      = ∑ a : Fin 8192, ∑ b : Fin 8192, f a b := by
  -- A tile whose key ranges do not meet holds only pairs of unequal keys: every key of the one tile lies between its
  -- first and its last, so an equal pair would make the ranges meet. Such a tile sums to zero, pruned or not.
  have hprune : ∀ i j : Fin 8,
      (if Overlap key σ i j then
        ∑ r : Fin 1024, ∑ s : Fin 1024, f (σ (tileIx i r)) (σ (tileIx j s)) else 0)
        = ∑ r : Fin 1024, ∑ s : Fin 1024, f (σ (tileIx i r)) (σ (tileIx j s)) := by
    intro i j
    split_ifs with hov
    · rfl
    · symm
      refine Finset.sum_eq_zero fun r _ => Finset.sum_eq_zero fun s _ => hf _ _ fun heq => hov ?_
      have h1 := hsorted _ _ (tileIx_zero_le i r)
      have h2 := hsorted _ _ (tileIx_le_last i r)
      have h3 := hsorted _ _ (tileIx_zero_le j s)
      have h4 := hsorted _ _ (tileIx_le_last j s)
      exact ⟨by omega, by omega⟩
  simp only [hprune]
  -- The rows of tile `i` brought next to `i`; then each tile-and-row pair is one position.
  have hswap : ∀ i : Fin 8,
      (∑ j : Fin 8, ∑ r : Fin 1024, ∑ s : Fin 1024, f (σ (tileIx i r)) (σ (tileIx j s)))
        = ∑ r : Fin 1024, ∑ b : Fin 8192, f (σ (tileIx i r)) (σ b) := by
    intro i
    rw [Finset.sum_comm]
    refine Finset.sum_congr rfl fun r _ => ?_
    exact sum_tiles fun b => f (σ (tileIx i r)) (σ b)
  simp only [hswap]
  rw [sum_tiles fun a => ∑ b : Fin 8192, f (σ a) (σ b)]
  -- The renumbering is a bijection, in each of the two variables.
  rw [← (Equiv.ofBijective σ hσ).sum_comp fun a => ∑ b : Fin 8192, f a b]
  refine Finset.sum_congr rfl fun a _ => ?_
  exact (Equiv.ofBijective σ hσ).sum_comp fun b => f (σ a) b

/-- `eps` is a positive real. -/
theorem eps_pos : ∃ e : ℝ, 0 < e ∧ eps = (e : EReal) := by
  -- sign 0, exponent field 107, fraction field 407485: the normal number (2^23 + 407485) · 2^(107 − 127 − 23)
  refine ⟨(8796093 : ℝ) * (2 : ℝ) ^ (-43 : ℤ), by positivity, ?_⟩
  unfold eps
  simp [Ideal.ofBits, Ideal.ieee, -EReal.coe_mul]

/-- `half` is the real 1/2. -/
theorem half_eq : half = ((1 / 2 : ℝ) : EReal) := by
  -- sign 0, exponent field 126, fraction field 0: the normal number 2^23 · 2^(126 − 127 − 23)
  unfold half
  simp [Ideal.ofBits, Ideal.ieee, -EReal.coe_mul]
  norm_num

/-- No position is ranked against itself: `t a + eps < t a` fails at every extended real. -/
theorem not_ranked_self (t : Fin 8192 → EReal) (d : Fin 8192 → BitVec 32) (a : Fin 8192) : ¬ Ranked t d a a := by
  obtain ⟨e, he, heq⟩ := eps_pos
  rintro ⟨-, h⟩
  rw [heq] at h
  generalize t a = z at h
  induction z using EReal.rec with
  | bot => rw [EReal.bot_add] at h; exact lt_irrefl _ h
  | top => rw [EReal.top_add_coe] at h; exact lt_irrefl _ h
  | coe x =>
    rw [← EReal.coe_add, EReal.coe_lt_coe_iff] at h
    linarith

/-- On real predictions the hinge may be computed as `max ((1/2 − p a) + p b) 0`. -/
theorem hinge_regroup (x y : ℝ) : max (half - ((x : EReal) - (y : EReal))) 0 = max ((half - (x : EReal)) + (y : EReal)) 0 := by
  rw [half_eq]
  -- both arguments of `max` are the one real `1/2 − (x − y) = (1/2 − x) + y`
  have h : ((1 / 2 : ℝ) : EReal) - ((x : EReal) - (y : EReal)) = (((1 / 2 : ℝ) : EReal) - (x : EReal)) + (y : EReal) := by
    rw [← EReal.coe_sub, ← EReal.coe_sub, ← EReal.coe_sub, ← EReal.coe_add]
    congr 1
    ring
  rw [h]

end Cert.PairRank

end
-- ==== Proof.Pt.lean ====
/-
  Names shared by the modules that read the kernel's region: the grid point of a (row tile, column tile) pair, the one
  entry of a 1 × 1 vector, the condition under which the body adds a tile in, and what a grid point contributes to its
  row's running sum and running count.
-/
import proofs.«417551_j53944789238504_3_alg».proof.Proof.Gen.KernelIdeal.Frame
import proofs.«417551_j53944789238504_3_alg».proof.Proof.Spec
import Idealize.ShloMosaic.Lib.ValueIdx

noncomputable section

open Idealize.ShloMosaic Idealize.ShloMosaic.TcCoe Idealize.SL.Sem

namespace Cert.KernelIdeal.Pt

open Cert.KernelIdeal Cert.KernelIdeal.Gen
open Idealize.ShloMosaic.ValueIdx (ix2 ix3)

/-- The one entry of a 1 × 1 vector. -/
abbrev z11 : S1x1.Idx := ix2 (0 : Fin 1) (0 : Fin 1)

section
variable {F : FTy → Type} [FloatOps F]
variable (m : (ℓ : Loc nD τ sig) → Buf (Elt F) ℓ)

/-- The grid point of row tile `i` and column tile `j`: the grid is walked row-major, so it is point `8·i + j`. -/
def pt (hO : Ok m) (i j : Fin 8) : Fin (cfgM m hO).N :=
  ⟨8 * i.val + j.val, by have hN : (cfgM m hO).N = 64 := N_0; omega⟩

theorem pt_val (hO : Ok m) (i j : Fin 8) : (pt m hO i j).val = 8 * i.val + j.val := rfl

/-- At point `t` the body finds the two tiles' group-id ranges meeting: the condition of its guarded branch, on the four
    words it loads from the prefetched tables (the row tile's first and last id, the column tile's first and last id). -/
def Meets (hO : Ok m) (t : Fin (cfgM m hO).N) : Prop :=
  cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos))) (tbM0_1.view.readAt (Elt F) (Rect.unit (s := S8) (k0_off1 (grid0.coords t)) S1.size (k0_off1_inb (grid0.coords t))).toLoadRect (tbl m 1) (Shape.Idx.first (numel1_S1.symm ▸ Nat.one_pos))) (tbM0_0.view.readAt (Elt F) (Rect.unit (s := S8) (k0_off2 (grid0.coords t)) S1.size (k0_off2_inb (grid0.coords t))).toLoadRect (tbl m 0) (Shape.Idx.first (numel1_S1.symm ▸ Nat.one_pos))) (tbM0_1.view.readAt (Elt F) (Rect.unit (s := S8) (k0_off2 (grid0.coords t)) S1.size (k0_off2_inb (grid0.coords t))).toLoadRect (tbl m 1) (Shape.Idx.first (numel1_S1.symm ▸ Nat.one_pos)))

end

section
variable (m : (ℓ : Loc nD τ sig) → Buf (Elt Ideal) ℓ)

open Classical in
/-- What point `t` adds to its row's running sum: the tile's sum when the ranges meet, else nothing. -/
def contribS (hO : Ok m) (c : Dev nD) (t : Fin (cfgM m hO).N) : EReal :=
  if Meets m hO t then
    (k0_pay8 (F := Ideal) (iblk m hO c 0 t) (iblk m hO c 1 t) (iblk m hO c 2 t) (iblk m hO c 3 t) (iblk m hO c 4 t) (iblk m hO c 5 t)) z11
  else 0

open Classical in
/-- What point `t` adds to its row's running count: the tile's count (as a word) when the ranges meet, else nothing. -/
def contribC (hO : Ok m) (c : Dev nD) (t : Fin (cfgM m hO).N) : BitVec 32 :=
  if Meets m hO t then
    (fptosi (F := Ideal) 32 (k0_pay9 (F := Ideal) (iblk m hO c 2 t) (iblk m hO c 3 t) (iblk m hO c 4 t) (iblk m hO c 5 t))) z11
  else 0#32

end

end Cert.KernelIdeal.Pt

end
-- ==== Proof.Head.lean ====
/-
  What the region finds: the host operations before the pallas_call sort the positions by signed group id (a stable sort
  carrying the positions), gather the three argument arrays through the sorted positions, lay each out as a column and as
  a row, and read each 1024-tile's first and last group id into the two prefetched tables.
-/
import proofs.«417551_j53944789238504_3_alg».proof.Proof.Gen.KernelIdeal.Frame
import proofs.«417551_j53944789238504_3_alg».proof.Proof.Spec
import Idealize.ShloMosaic.Lib.SortFacts
import Idealize.ShloMosaic.Lib.StableHlo.Predicate
import Idealize.ShloMosaic.Lib.StableHlo.Run
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem

namespace Cert.KernelIdeal.Head

open Cert.KernelIdeal Cert.KernelIdeal.Gen Cert.PairRank
open Idealize.ShloMosaic.StableHlo.Predicate (ixP i1q)

variable {F : FTy → Type} [FloatOps F]
variable (m : (ℓ : Loc nD τ sig) → Buf (Elt F) ℓ)

/-- The group ids as core `c` finds them at launch. -/
abbrev ids (c : Dev nD) : IVec S8192 32 := m ((c : Thread nD τ).loc main_arg2)

/-- The sorting permutation: position `a` of the sorted order holds the original position `perm a` — the stable sort of the
    positions by signed group id. -/
def perm (c : Dev nD) : Fin 8192 → Fin 8192 :=
  sortedFrom (fun k k' => IntOp.cmpi .slt (ids m c (Shape.Idx.ofFin k)) (ids m c (Shape.Idx.ofFin k')) == 1#1)

/-! ## The sort read at a position -/

/-- On a rank-1 shape the carried operand of a two-operand sort along axis 0 is read through one self-map of the
    positions: the stable sorting permutation of the comparator on the pairs. -/
theorem sort2_rank1_snd {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The sorted positions as words: entry `a` of the argsort is the word of the position the stable sort by signed group
    id puts at `a`. -/
theorem order_apply (x : IVec S8192 32) (a : Fin 8192) :
    (Host.sort2 S8192 0 comparator_i32_i32_d0 x (iotaInDim S8192 32 0)).2 (Shape.Idx.ofFin a)
      = BitVec.ofNat 32 (sortedFrom (fun k k' => IntOp.cmpi .slt (x (Shape.Idx.ofFin k)) (x (Shape.Idx.ofFin k')) == 1#1) a).val := by
  rw [sort2_rank1_snd]
  simp only [comparator_i32_i32_d0, Shape.Idx.ofFin_zero]
  exact StableHlo.Predicate.iota_apply _

/-- A position's word is not negative as a signed word, so the index normalisation (add the length where negative) leaves
    it, and read back signed it is the position. -/
theorem norm_word (k : Fin 8192) :
    (Scalar.select (IntOp.cmpi .slt (BitVec.ofNat 32 k.val) 0#32) (IntOp.addi (BitVec.ofNat 32 k.val) 8192#32)
      (BitVec.ofNat 32 k.val)).toInt.toNat = k.val := by
  have hk := k.isLt
  have h31 : k.val < 2 ^ 31 := by omega
  have hs : IntOp.cmpi .slt (BitVec.ofNat 32 k.val) 0#32 = 0#1 := by
    refine ValueIdx.eq_zero_of_ne_one (fun h => ?_)
    have := (StableHlo.Predicate.slt_ofNat_iff k.val 0 h31 (by norm_num)).mp h
    omega
  rw [hs, ValueIdx.select_zero, StableHlo.Predicate.toInt_ofNat_small _ h31]
  rfl

/-- THE TAKE THROUGH THE SORTED POSITIONS. A rank-1 table gathered at the argsort of the group ids (normalised as an
    index, laid out as a column of start indices) reads, at position `a`, the table at the position the stable sort by
    signed group id puts at `a`. -/
theorem take_sorted {α : Type} (T : S8192.Idx → α) (x : IVec S8192 32) (a : Fin 8192) :
    Host.gather gather_S8192_S8192x1_S8192_n_0_n_n_0_1_1 T
      (broadcastInDim S8192x1 ![0] bcast_S8192_S8192x1_0
        (select (cmpi .slt (Host.sort2 S8192 0 comparator_i32_i32_d0 x (iotaInDim S8192 32 0)).2
                  (broadcastInDim S8192 ![] bcast_S_S8192 (constantI S_ 32 0#32)))
          (addi (Host.sort2 S8192 0 comparator_i32_i32_d0 x (iotaInDim S8192 32 0)).2
                  (broadcastInDim S8192 ![] bcast_S_S8192 (constantI S_ 32 8192#32)))
          (Host.sort2 S8192 0 comparator_i32_i32_d0 x (iotaInDim S8192 32 0)).2))
      (Shape.Idx.ofFin a)
    = T (Shape.Idx.ofFin (sortedFrom (fun k k' => IntOp.cmpi .slt (x (Shape.Idx.ofFin k)) (x (Shape.Idx.ofFin k')) == 1#1) a)) := by
  have hoa := order_apply x a
  generalize (Host.sort2 S8192 0 comparator_i32_i32_d0 x (iotaInDim S8192 32 0)).2 = ord at hoa ⊢
  generalize sortedFrom (fun k k' => IntOp.cmpi .slt (x (Shape.Idx.ofFin k)) (x (Shape.Idx.ofFin k')) == 1#1) a = k at hoa ⊢
  rw [StableHlo.Predicate.gather_take _ rfl rfl rfl rfl T _ a (by norm_num)]
  refine congrArg (fun q => T (Shape.Idx.ofFin q)) (Fin.ext ?_)
  show min (_ : BitVec 32).toInt.toNat (8192 - 1) = k.val
  rw [StableHlo.Predicate.bcast_col1]
  show min (Scalar.select (IntOp.cmpi .slt (ord (Shape.Idx.ofFin a)) 0#32) (IntOp.addi (ord (Shape.Idx.ofFin a)) 8192#32)
      (ord (Shape.Idx.ofFin a))).toInt.toNat (8192 - 1) = k.val
  rw [hoa, norm_word]
  have hk := k.isLt
  omega

/-- The table `T` gathered through the sorted positions, as the host operations compute it from the group ids `x`. -/
abbrev taken {α : Type} (T : S8192.Idx → α) (x : IVec S8192 32) : S8192.Idx → α :=
  Host.gather gather_S8192_S8192x1_S8192_n_0_n_n_0_1_1 T
    (broadcastInDim S8192x1 ![0] bcast_S8192_S8192x1_0
      (select (cmpi .slt (Host.sort2 S8192 0 comparator_i32_i32_d0 x (iotaInDim S8192 32 0)).2
                (broadcastInDim S8192 ![] bcast_S_S8192 (constantI S_ 32 0#32)))
        (addi (Host.sort2 S8192 0 comparator_i32_i32_d0 x (iotaInDim S8192 32 0)).2
                (broadcastInDim S8192 ![] bcast_S_S8192 (constantI S_ 32 8192#32)))
        (Host.sort2 S8192 0 comparator_i32_i32_d0 x (iotaInDim S8192 32 0)).2))

set_option maxHeartbeats 400000 in
theorem V_v31_eq (c : Dev nD) :
    (V m c main_v31 : Vec F S8192x1 .i32) = shapeCast S8192x1 (taken (ids m c) (ids m c)) shapeCasts_S8192_S8192x1 := by
  dsimp only [Gen.V, Gen.V0]
  simp only [Gen.hostOps0, Gen.hostOps0_1, List.flatten_cons, List.flatten_nil, List.append_nil, List.cons_append, List.nil_append]
  after_results_simp
  simp only [StableHlo.TRef.ofBuf, StableHlo.TRef.toBuf, cast_eq]
  rfl

/-! ## The layouts read at an index -/

/-- A vector as a column reads, at row `a`, the vector at `a`. -/
theorem col_apply {α : Type} (T : S8192.Idx → α) (a : Fin 8192) :
    shapeCast S8192x1 T shapeCasts_S8192_S8192x1 (ixP a) = T (Shape.Idx.ofFin a) :=
  shapeCast_apply T _ (ixP a) (Shape.Idx.ofFin a) (by
    rw [Shape.rowMajor_val_one, Shape.rowMajor_val_two]
    show a.val = a.val * 1 + 0
    omega)

/-- A vector as a row reads, at column `b`, the vector at `b`. -/
theorem row_apply {α : Type} (T : S8192.Idx → α) (b : Fin 8192) :
    shapeCast S1x8192 T shapeCasts_S8192_S1x8192 (i1q b) = T (Shape.Idx.ofFin b) :=
  shapeCast_apply T _ (i1q b) (Shape.Idx.ofFin b) (by
    rw [Shape.rowMajor_val_one, Shape.rowMajor_val_two]
    show b.val = 0 * 8192 + b.val
    omega)

/-- A vector cut into eight tiles of 1024 reads, at `(k, r)`, the vector at position `1024·k + r`. -/
theorem tiles_apply {α : Type} (T : S8192.Idx → α) (k : Fin 8) (r : Fin 1024) :
    shapeCast S8x1024 T shapeCasts_S8192_S8x1024 (ValueIdx.ix2 k r) = T (Shape.Idx.ofFin (tileIx k r)) :=
  shapeCast_apply T _ (ValueIdx.ix2 k r) (Shape.Idx.ofFin (tileIx k r)) (by
    rw [Shape.rowMajor_val_one, Shape.rowMajor_val_two]
    show 1024 * k.val + r.val = k.val * 1024 + r.val
    omega)

/-- A column of eight as a vector reads, at `k`, the column at row `k`. -/
theorem uncol_apply {α : Type} (T : S8x1.Idx → α) (k : Fin 8) :
    shapeCast S8 T shapeCasts_S8x1_S8 (Shape.Idx.ofFin k) = T (ValueIdx.ix2 k (0 : Fin 1)) :=
  shapeCast_apply T _ (Shape.Idx.ofFin k) (ValueIdx.ix2 k (0 : Fin 1)) (by
    rw [Shape.rowMajor_val_one, Shape.rowMajor_val_two]
    show k.val * 1 + 0 = k.val
    omega)

/-! ## The sorting permutation -/

/-- The sort's "before" relation on two words is the strict order of their signed values. -/
theorem before_eq (u v : BitVec 32) : (IntOp.cmpi .slt u v == 1#1) = decide (u.toInt < v.toInt) := by
  show (BitVec.ofBool (u.slt v) == 1#1) = _
  rw [BitVec.slt]
  cases decide (u.toInt < v.toInt) <;> rfl

theorem perm_bijective (c : Dev nD) : Function.Bijective (perm m c) :=
  ⟨sortedFrom_injective _, sortedFrom_surjective _⟩

/-- The sorted group ids are non-decreasing as signed integers. -/
theorem perm_sorted (c : Dev nD) (a b : Fin 8192) (h : a ≤ b) :
    (ids m c (Shape.Idx.ofFin (perm m c a))).toInt ≤ (ids m c (Shape.Idx.ofFin (perm m c b))).toInt := by
  rcases h.eq_or_lt with rfl | hlt
  · exact le_refl _
  · -- the relation is the strict order of the signed values, a strict weak order: the stable sort leaves no inversion
    have hR : (fun k k' : Fin 8192 => IntOp.cmpi .slt (ids m c (Shape.Idx.ofFin k)) (ids m c (Shape.Idx.ofFin k')) == 1#1)
        = fun k k' => decide ((ids m c (Shape.Idx.ofFin k)).toInt < (ids m c (Shape.Idx.ofFin k')).toInt) :=
      funext fun k => funext fun k' => before_eq _ _
    have hp : perm m c
        = sortedFrom fun k k' => decide ((ids m c (Shape.Idx.ofFin k)).toInt < (ids m c (Shape.Idx.ofFin k')).toInt) :=
      congrArg sortedFrom hR
    rw [hp]
    have hn := sortedFrom_noInversion
      (fun k k' : Fin 8192 => decide ((ids m c (Shape.Idx.ofFin k)).toInt < (ids m c (Shape.Idx.ofFin k')).toInt))
      (fun k k' : Fin 8192 => decide ((ids m c (Shape.Idx.ofFin k)).toInt < (ids m c (Shape.Idx.ofFin k')).toInt))
      (fun p q hpq => decide_eq_false (not_lt.mpr (le_of_lt (of_decide_eq_true hpq))))
      (fun _ _ hpq => hpq)
      (fun p q r hpq hqr => decide_eq_false (not_lt.mpr
        (le_trans (not_lt.mp (of_decide_eq_false hqr)) (not_lt.mp (of_decide_eq_false hpq)))))
      a b hlt
    exact not_lt.mp (of_decide_eq_false hn)

/-! ## What the host operations leave in each buffer -/

set_option maxHeartbeats 400000 in
/-- The predictions' column: the predictions taken through the sorted positions, as a column. -/
theorem v27_eq (c : Dev nD) :
    (V m c main_v27 : Vec F S8192x1 .f32) = shapeCast S8192x1 (taken (m ((c : Thread nD τ).loc main_arg0) : Vec F S8192 .f32) (ids m c)) shapeCasts_S8192_S8192x1 := by
  dsimp only [Gen.V, Gen.V0]
  simp only [Gen.hostOps0, Gen.hostOps0_1, List.flatten_cons, List.flatten_nil, List.append_nil, List.cons_append,
    List.nil_append]
  after_results_simp
  simp only [StableHlo.TRef.ofBuf, StableHlo.TRef.toBuf, cast_eq]
  rfl

set_option maxHeartbeats 400000 in
/-- The predictions' row. -/
theorem v28_eq (c : Dev nD) :
    (V m c main_v28 : Vec F S1x8192 .f32) = shapeCast S1x8192 (taken (m ((c : Thread nD τ).loc main_arg0) : Vec F S8192 .f32) (ids m c)) shapeCasts_S8192_S1x8192 := by
  dsimp only [Gen.V, Gen.V0]
  simp only [Gen.hostOps0, Gen.hostOps0_1, List.flatten_cons, List.flatten_nil, List.append_nil, List.cons_append,
    List.nil_append]
  after_results_simp
  simp only [StableHlo.TRef.ofBuf, StableHlo.TRef.toBuf, cast_eq]
  rfl

set_option maxHeartbeats 400000 in
/-- The targets' column. -/
theorem v29_eq (c : Dev nD) :
    (V m c main_v29 : Vec F S8192x1 .f32) = shapeCast S8192x1 (taken (m ((c : Thread nD τ).loc main_arg1) : Vec F S8192 .f32) (ids m c)) shapeCasts_S8192_S8192x1 := by
  dsimp only [Gen.V, Gen.V0]
  simp only [Gen.hostOps0, Gen.hostOps0_1, List.flatten_cons, List.flatten_nil, List.append_nil, List.cons_append,
    List.nil_append]
  after_results_simp
  simp only [StableHlo.TRef.ofBuf, StableHlo.TRef.toBuf, cast_eq]
  rfl

set_option maxHeartbeats 400000 in
/-- The targets' row. -/
theorem v30_eq (c : Dev nD) :
    (V m c main_v30 : Vec F S1x8192 .f32) = shapeCast S1x8192 (taken (m ((c : Thread nD τ).loc main_arg1) : Vec F S8192 .f32) (ids m c)) shapeCasts_S8192_S1x8192 := by
  dsimp only [Gen.V, Gen.V0]
  simp only [Gen.hostOps0, Gen.hostOps0_1, List.flatten_cons, List.flatten_nil, List.append_nil, List.cons_append,
    List.nil_append]
  after_results_simp
  simp only [StableHlo.TRef.ofBuf, StableHlo.TRef.toBuf, cast_eq]
  rfl

set_option maxHeartbeats 400000 in
/-- The group ids' column. -/
theorem v31_eq (c : Dev nD) :
    (V m c main_v31 : Vec F S8192x1 .i32) = shapeCast S8192x1 (taken (ids m c) (ids m c)) shapeCasts_S8192_S8192x1 := by
  dsimp only [Gen.V, Gen.V0]
  simp only [Gen.hostOps0, Gen.hostOps0_1, List.flatten_cons, List.flatten_nil, List.append_nil, List.cons_append,
    List.nil_append]
  after_results_simp
  simp only [StableHlo.TRef.ofBuf, StableHlo.TRef.toBuf, cast_eq]
  rfl

set_option maxHeartbeats 400000 in
/-- The group ids' row. -/
theorem v32_eq (c : Dev nD) :
    (V m c main_v32 : Vec F S1x8192 .i32) = shapeCast S1x8192 (taken (ids m c) (ids m c)) shapeCasts_S8192_S1x8192 := by
  dsimp only [Gen.V, Gen.V0]
  simp only [Gen.hostOps0, Gen.hostOps0_1, List.flatten_cons, List.flatten_nil, List.append_nil, List.cons_append,
    List.nil_append]
  after_results_simp
  simp only [StableHlo.TRef.ofBuf, StableHlo.TRef.toBuf, cast_eq]
  rfl

set_option maxHeartbeats 400000 in
/-- The first table: the sorted group ids cut into eight tiles of 1024, each tile's entry 0. -/
theorem v24_eq (c : Dev nD) :
    (V m c main_v24 : Vec F S8 .i32) = shapeCast S8 (extractStridedSlice S8x1 ![0, 0]
        (shapeCast S8x1024 (taken (ids m c) (ids m c)) shapeCasts_S8192_S8x1024) slices_S8x1024_S8x1_0_0) shapeCasts_S8x1_S8 := by
  dsimp only [Gen.V, Gen.V0]
  simp only [Gen.hostOps0, Gen.hostOps0_1, List.flatten_cons, List.flatten_nil, List.append_nil, List.cons_append,
    List.nil_append]
  after_results_simp
  simp only [StableHlo.TRef.ofBuf, StableHlo.TRef.toBuf, cast_eq]
  rfl

set_option maxHeartbeats 400000 in
/-- The second table: each tile's entry 1023. -/
theorem v26_eq (c : Dev nD) :
    (V m c main_v26 : Vec F S8 .i32) = shapeCast S8 (extractStridedSlice S8x1 ![0, 1023]
        (shapeCast S8x1024 (taken (ids m c) (ids m c)) shapeCasts_S8192_S8x1024) slices_S8x1024_S8x1_0_1023) shapeCasts_S8x1_S8 := by
  dsimp only [Gen.V, Gen.V0]
  simp only [Gen.hostOps0, Gen.hostOps0_1, List.flatten_cons, List.flatten_nil, List.append_nil, List.cons_append,
    List.nil_append]
  after_results_simp
  simp only [StableHlo.TRef.ofBuf, StableHlo.TRef.toBuf, cast_eq]
  rfl

/-- The predictions as a column: row `a` holds the prediction of the sorted order's position `a`. -/
theorem V_v27 (c : Dev nD) (a : Fin 8192) :
    (V m c main_v27 : Vec F S8192x1 .f32) (ixP a) = m ((c : Thread nD τ).loc main_arg0) (Shape.Idx.ofFin (perm m c a)) := by
  rw [v27_eq, col_apply]
  exact take_sorted _ _ a
/-- The predictions as a row. -/
theorem V_v28 (c : Dev nD) (b : Fin 8192) :
    (V m c main_v28 : Vec F S1x8192 .f32) (i1q b) = m ((c : Thread nD τ).loc main_arg0) (Shape.Idx.ofFin (perm m c b)) := by
  rw [v28_eq, row_apply]
  exact take_sorted _ _ b
/-- The targets as a column. -/
theorem V_v29 (c : Dev nD) (a : Fin 8192) :
    (V m c main_v29 : Vec F S8192x1 .f32) (ixP a) = m ((c : Thread nD τ).loc main_arg1) (Shape.Idx.ofFin (perm m c a)) := by
  rw [v29_eq, col_apply]
  exact take_sorted _ _ a
/-- The targets as a row. -/
theorem V_v30 (c : Dev nD) (b : Fin 8192) :
    (V m c main_v30 : Vec F S1x8192 .f32) (i1q b) = m ((c : Thread nD τ).loc main_arg1) (Shape.Idx.ofFin (perm m c b)) := by
  rw [v30_eq, row_apply]
  exact take_sorted _ _ b
/-- The group ids as a column. -/
theorem V_v31 (c : Dev nD) (a : Fin 8192) :
    (V m c main_v31 : Vec F S8192x1 .i32) (ixP a) = ids m c (Shape.Idx.ofFin (perm m c a)) := by
  rw [v31_eq, col_apply]
  exact take_sorted _ _ a
/-- The group ids as a row. -/
theorem V_v32 (c : Dev nD) (b : Fin 8192) :
    (V m c main_v32 : Vec F S1x8192 .i32) (i1q b) = ids m c (Shape.Idx.ofFin (perm m c b)) := by
  rw [v32_eq, row_apply]
  exact take_sorted _ _ b

/-- The first table holds each tile's first sorted group id. -/
theorem tbl_min (k : Fin 8) :
    (tbl m 0 : Vec F S8 .i32) (Shape.Idx.ofFin k) = ids m 0 (Shape.Idx.ofFin (perm m 0 (tileIx k 0))) := by
  show (V m 0 main_v24 : Vec F S8 .i32) (Shape.Idx.ofFin k) = _
  rw [v24_eq, uncol_apply, ValueIdx.slice2_axis1_apply 0 _ _ k (0 : Fin 1) (0 : Fin 1024) rfl, tiles_apply]
  exact take_sorted _ _ _
/-- The second table holds each tile's last sorted group id. -/
theorem tbl_max (k : Fin 8) :
    (tbl m 1 : Vec F S8 .i32) (Shape.Idx.ofFin k) = ids m 0 (Shape.Idx.ofFin (perm m 0 (tileIx k 1023))) := by
  show (V m 0 main_v26 : Vec F S8 .i32) (Shape.Idx.ofFin k) = _
  rw [v26_eq, uncol_apply, ValueIdx.slice2_axis1_apply 1023 _ _ k (0 : Fin 1) (1023 : Fin 1024) rfl, tiles_apply]
  exact take_sorted _ _ _

-- Nothing outside this module needs the permutation's definition: its facts are the statements above.
attribute [irreducible] perm

end Cert.KernelIdeal.Head

end
-- ==== Proof.Blocks.lean ====
/-
  What the kernel body is handed at the grid point of row tile `i` and column tile `j`: the three column blocks are rows
  `1024·i … 1024·i + 1023` of the three columns the region finds, the three row blocks are columns
  `1024·j … 1024·j + 1023` of the three rows; and the four table words it loads are the two tables at `i` and at `j`,
  so that its guard says: tile `j`'s first id is at most tile `i`'s last, and tile `i`'s first at most tile `j`'s last.
-/
import proofs.«417551_j53944789238504_3_alg».proof.Proof.Gen.KernelIdeal.Frame
import proofs.«417551_j53944789238504_3_alg».proof.Proof.Spec
import proofs.«417551_j53944789238504_3_alg».proof.Proof.Pt
import Idealize.ShloMosaic.Lib.SortFacts
import Idealize.ShloMosaic.Lib.StableHlo.Predicate
import Idealize.ShloMosaic.Lib.Pipeline.Value
import Idealize.ShloMosaic.Lib.ValueIdx

set_option maxRecDepth 16384

noncomputable section

open Idealize.ShloMosaic Idealize.ShloMosaic.TcCoe Idealize.SL.Sem

namespace Cert.KernelIdeal.Blocks

open Cert.KernelIdeal Cert.KernelIdeal.Gen Cert.KernelIdeal.Pt Cert.PairRank
open Idealize.ShloMosaic.StableHlo.Predicate (ixP i1q)

variable {F : FTy → Type} [FloatOps F]

/-! ## Where each window's block sits: decided over the grid, at any contents of the tables -/

/-- Window 0's block index at point `t` is `(t / 8, 0)`, whatever the tables hold: its index map reads the row coordinate only. -/
theorem idx0 (a : (pcfg0 (F := F)).Adm) : ∀ t : Fin (cfg0 a).N, ((cfg0 a).win 0).index t = ![t.val / 8, 0] :=
  (by decide +kernel : ∀ t : Fin grid0.N, cc0_transform_0 (grid0.coords t) = ![t.val / 8, 0])
/-- Window 1's block index at point `t` is `(0, t % 8)`, whatever the tables hold: its index map reads the column coordinate only. -/
theorem idx1 (a : (pcfg0 (F := F)).Adm) : ∀ t : Fin (cfg0 a).N, ((cfg0 a).win 1).index t = ![0, t.val % 8] :=
  (by decide +kernel : ∀ t : Fin grid0.N, cc0_transform_1 (grid0.coords t) = ![0, t.val % 8])
/-- Window 2's block index at point `t` is `(t / 8, 0)`, whatever the tables hold: its index map reads the row coordinate only. -/
theorem idx2 (a : (pcfg0 (F := F)).Adm) : ∀ t : Fin (cfg0 a).N, ((cfg0 a).win 2).index t = ![t.val / 8, 0] :=
  (by decide +kernel : ∀ t : Fin grid0.N, cc0_transform_2 (grid0.coords t) = ![t.val / 8, 0])
/-- Window 3's block index at point `t` is `(0, t % 8)`, whatever the tables hold: its index map reads the column coordinate only. -/
theorem idx3 (a : (pcfg0 (F := F)).Adm) : ∀ t : Fin (cfg0 a).N, ((cfg0 a).win 3).index t = ![0, t.val % 8] :=
  (by decide +kernel : ∀ t : Fin grid0.N, cc0_transform_3 (grid0.coords t) = ![0, t.val % 8])
/-- Window 4's block index at point `t` is `(t / 8, 0)`, whatever the tables hold: its index map reads the row coordinate only. -/
theorem idx4 (a : (pcfg0 (F := F)).Adm) : ∀ t : Fin (cfg0 a).N, ((cfg0 a).win 4).index t = ![t.val / 8, 0] :=
  (by decide +kernel : ∀ t : Fin grid0.N, cc0_transform_4 (grid0.coords t) = ![t.val / 8, 0])
/-- Window 5's block index at point `t` is `(0, t % 8)`, whatever the tables hold: its index map reads the column coordinate only. -/
theorem idx5 (a : (pcfg0 (F := F)).Adm) : ∀ t : Fin (cfg0 a).N, ((cfg0 a).win 5).index t = ![0, t.val % 8] :=
  (by decide +kernel : ∀ t : Fin grid0.N, cc0_transform_5 (grid0.coords t) = ![0, t.val % 8])

/-! ## The blocks read off any contents of their arrays -/

/-- A column window's block at point `8·i + j`, read off any contents `X` of its array: entry `r` is entry `1024·i + r` of `X`
    (the block's coordinate is index × size + the coordinate inside the block; the index is `(i, 0)`). -/
theorem blk0_read (a : (pcfg0 (F := F)).Adm) (X : Vec F S8192x1 .f32) (t : Fin (cfg0 a).N) (i j : Fin 8)
    (ht : t.val = 8 * i.val + j.val) (r : Fin 1024) :
    (((cfg0 a).win 0).blk t).view.read (Elt F) X (ixP r) = X (ixP (tileIx i r)) := by
  show X ((((cfg0 a).win 0).blk t).view.emb (ixP r)) = X (ixP (tileIx i r))
  refine congrArg X ?_
  funext b
  apply Fin.ext
  have h0 : ((cfg0 a).win 0).index t (0 : Fin 2) = t.val / 8 := congrFun (idx0 a t) (0 : Fin 2)
  have h1 : ((cfg0 a).win 0).index t (1 : Fin 2) = 0 := congrFun (idx0 a t) (1 : Fin 2)
  match b with
  | ⟨0, _⟩ => show ((cfg0 a).win 0).index t (0 : Fin 2) * 1024 + 1 * r.val = 1024 * i.val + r.val; rw [h0]; omega
  | ⟨1, _⟩ => show ((cfg0 a).win 0).index t (1 : Fin 2) * 1 + 1 * 0 = 0; rw [h1]
/-- A row window's block at point `8·i + j`, read off any contents `X` of its array: entry `s` is entry `1024·j + s` of `X`
    (the index is `(0, j)`). -/
theorem blk1_read (a : (pcfg0 (F := F)).Adm) (X : Vec F S1x8192 .f32) (t : Fin (cfg0 a).N) (i j : Fin 8)
    (ht : t.val = 8 * i.val + j.val) (s : Fin 1024) :
    (((cfg0 a).win 1).blk t).view.read (Elt F) X (i1q s) = X (i1q (tileIx j s)) := by
  show X ((((cfg0 a).win 1).blk t).view.emb (i1q s)) = X (i1q (tileIx j s))
  refine congrArg X ?_
  funext b
  apply Fin.ext
  have h0 : ((cfg0 a).win 1).index t (0 : Fin 2) = 0 := congrFun (idx1 a t) (0 : Fin 2)
  have h1 : ((cfg0 a).win 1).index t (1 : Fin 2) = t.val % 8 := congrFun (idx1 a t) (1 : Fin 2)
  match b with
  | ⟨0, _⟩ => show ((cfg0 a).win 1).index t (0 : Fin 2) * 1 + 1 * 0 = 0; rw [h0]
  | ⟨1, _⟩ => show ((cfg0 a).win 1).index t (1 : Fin 2) * 1024 + 1 * s.val = 1024 * j.val + s.val; rw [h1]; omega
/-- A column window's block at point `8·i + j`, read off any contents `X` of its array: entry `r` is entry `1024·i + r` of `X`
    (the block's coordinate is index × size + the coordinate inside the block; the index is `(i, 0)`). -/
theorem blk2_read (a : (pcfg0 (F := F)).Adm) (X : Vec F S8192x1 .f32) (t : Fin (cfg0 a).N) (i j : Fin 8)
    (ht : t.val = 8 * i.val + j.val) (r : Fin 1024) :
    (((cfg0 a).win 2).blk t).view.read (Elt F) X (ixP r) = X (ixP (tileIx i r)) := by
  show X ((((cfg0 a).win 2).blk t).view.emb (ixP r)) = X (ixP (tileIx i r))
  refine congrArg X ?_
  funext b
  apply Fin.ext
  have h0 : ((cfg0 a).win 2).index t (0 : Fin 2) = t.val / 8 := congrFun (idx2 a t) (0 : Fin 2)
  have h1 : ((cfg0 a).win 2).index t (1 : Fin 2) = 0 := congrFun (idx2 a t) (1 : Fin 2)
  match b with
  | ⟨0, _⟩ => show ((cfg0 a).win 2).index t (0 : Fin 2) * 1024 + 1 * r.val = 1024 * i.val + r.val; rw [h0]; omega
  | ⟨1, _⟩ => show ((cfg0 a).win 2).index t (1 : Fin 2) * 1 + 1 * 0 = 0; rw [h1]
/-- A row window's block at point `8·i + j`, read off any contents `X` of its array: entry `s` is entry `1024·j + s` of `X`
    (the index is `(0, j)`). -/
theorem blk3_read (a : (pcfg0 (F := F)).Adm) (X : Vec F S1x8192 .f32) (t : Fin (cfg0 a).N) (i j : Fin 8)
    (ht : t.val = 8 * i.val + j.val) (s : Fin 1024) :
    (((cfg0 a).win 3).blk t).view.read (Elt F) X (i1q s) = X (i1q (tileIx j s)) := by
  show X ((((cfg0 a).win 3).blk t).view.emb (i1q s)) = X (i1q (tileIx j s))
  refine congrArg X ?_
  funext b
  apply Fin.ext
  have h0 : ((cfg0 a).win 3).index t (0 : Fin 2) = 0 := congrFun (idx3 a t) (0 : Fin 2)
  have h1 : ((cfg0 a).win 3).index t (1 : Fin 2) = t.val % 8 := congrFun (idx3 a t) (1 : Fin 2)
  match b with
  | ⟨0, _⟩ => show ((cfg0 a).win 3).index t (0 : Fin 2) * 1 + 1 * 0 = 0; rw [h0]
  | ⟨1, _⟩ => show ((cfg0 a).win 3).index t (1 : Fin 2) * 1024 + 1 * s.val = 1024 * j.val + s.val; rw [h1]; omega
/-- A column window's block at point `8·i + j`, read off any contents `X` of its array: entry `r` is entry `1024·i + r` of `X`
    (the block's coordinate is index × size + the coordinate inside the block; the index is `(i, 0)`). -/
theorem blk4_read (a : (pcfg0 (F := F)).Adm) (X : Vec F S8192x1 .i32) (t : Fin (cfg0 a).N) (i j : Fin 8)
    (ht : t.val = 8 * i.val + j.val) (r : Fin 1024) :
    (((cfg0 a).win 4).blk t).view.read (Elt F) X (ixP r) = X (ixP (tileIx i r)) := by
  show X ((((cfg0 a).win 4).blk t).view.emb (ixP r)) = X (ixP (tileIx i r))
  refine congrArg X ?_
  funext b
  apply Fin.ext
  have h0 : ((cfg0 a).win 4).index t (0 : Fin 2) = t.val / 8 := congrFun (idx4 a t) (0 : Fin 2)
  have h1 : ((cfg0 a).win 4).index t (1 : Fin 2) = 0 := congrFun (idx4 a t) (1 : Fin 2)
  match b with
  | ⟨0, _⟩ => show ((cfg0 a).win 4).index t (0 : Fin 2) * 1024 + 1 * r.val = 1024 * i.val + r.val; rw [h0]; omega
  | ⟨1, _⟩ => show ((cfg0 a).win 4).index t (1 : Fin 2) * 1 + 1 * 0 = 0; rw [h1]
/-- A row window's block at point `8·i + j`, read off any contents `X` of its array: entry `s` is entry `1024·j + s` of `X`
    (the index is `(0, j)`). -/
theorem blk5_read (a : (pcfg0 (F := F)).Adm) (X : Vec F S1x8192 .i32) (t : Fin (cfg0 a).N) (i j : Fin 8)
    (ht : t.val = 8 * i.val + j.val) (s : Fin 1024) :
    (((cfg0 a).win 5).blk t).view.read (Elt F) X (i1q s) = X (i1q (tileIx j s)) := by
  show X ((((cfg0 a).win 5).blk t).view.emb (i1q s)) = X (i1q (tileIx j s))
  refine congrArg X ?_
  funext b
  apply Fin.ext
  have h0 : ((cfg0 a).win 5).index t (0 : Fin 2) = 0 := congrFun (idx5 a t) (0 : Fin 2)
  have h1 : ((cfg0 a).win 5).index t (1 : Fin 2) = t.val % 8 := congrFun (idx5 a t) (1 : Fin 2)
  match b with
  | ⟨0, _⟩ => show ((cfg0 a).win 5).index t (0 : Fin 2) * 1 + 1 * 0 = 0; rw [h0]
  | ⟨1, _⟩ => show ((cfg0 a).win 5).index t (1 : Fin 2) * 1024 + 1 * s.val = 1024 * j.val + s.val; rw [h1]; omega

/-! ## The guard, as two inequalities between signed words -/

/-- The body's guard on four words: `v6 ≥ v8` and `v4 ≤ v10` as signed integers (the two comparisons' bits are and-ed,
    widened, and tested against zero). -/
theorem cond_iff (v4 v6 v8 v10 : BitVec 32) :
    ((Scalar.cmpi .ne (Scalar.extui (Scalar.andi (Scalar.cmpi .sge v6 v8) (Scalar.cmpi .sle v4 v10))) 0#32) = 1#1)
      ↔ v8.toInt ≤ v6.toInt ∧ v4.toInt ≤ v10.toInt := by
  unfold Scalar.cmpi Scalar.extui Scalar.andi IntOp.cmpi IntOp.andi
  simp only [BitVec.sle]
  by_cases h1 : v8.toInt ≤ v6.toInt <;> by_cases h2 : v4.toInt ≤ v10.toInt <;> simp [h1, h2]

/-- The same with each word replaced by an equal one. -/
theorem cond_iff_of_eq {v4 v6 v8 v10 w4 w6 w8 w10 : BitVec 32} (e4 : v4 = w4) (e6 : v6 = w6) (e8 : v8 = w8) (e10 : v10 = w10) :
    ((Scalar.cmpi .ne (Scalar.extui (Scalar.andi (Scalar.cmpi .sge v6 v8) (Scalar.cmpi .sle v4 v10))) 0#32) = 1#1)
      ↔ w8.toInt ≤ w6.toInt ∧ w4.toInt ≤ w10.toInt := by
  subst e4 e6 e8 e10
  exact cond_iff _ _ _ _

/-! ## The four table words -/

/-- The body's first two loads are at the row coordinate of the point. -/
theorem off1_eq : ∀ t : Fin grid0.N, k0_off1 (grid0.coords t) = ![t.val / 8] := by decide +kernel
/-- Its last two are at the column coordinate. -/
theorem off2_eq : ∀ t : Fin grid0.N, k0_off2 (grid0.coords t) = ![t.val % 8] := by decide +kernel

/-- A one-word load at offset `k` through the first table's whole buffer, held at any contents `xt`: the word `xt k`. -/
theorem tb0_read (xt : Vec F S8 .i32) (off : Fin 1 → Nat) (inb : ∀ a, off a + S1.size a ≤ S8.size a) (k : Fin 8)
    (hk : off = ![k.val]) (x : (Rect.unit (s := S8) off S1.size inb).toLoadRect.shape.Idx) :
    tbM0_0.view.readAt (Elt F) (Rect.unit (s := S8) off S1.size inb).toLoadRect xt x = xt (Shape.Idx.ofFin k) := by
  subst hk
  show xt ((Rect.unit (s := S8) ![k.val] S1.size inb).toLoadRect.idx x) = xt (Shape.Idx.ofFin k)
  refine congrArg xt ?_
  funext b
  apply Fin.ext
  have hb : b = 0 := Subsingleton.elim _ _
  subst hb
  have hx : (x 0).val < 1 := (x 0).isLt
  show k.val + 1 * (x 0).val = k.val
  omega

/-- The same through the second table's whole buffer. -/
theorem tb1_read (xt : Vec F S8 .i32) (off : Fin 1 → Nat) (inb : ∀ a, off a + S1.size a ≤ S8.size a) (k : Fin 8)
    (hk : off = ![k.val]) (x : (Rect.unit (s := S8) off S1.size inb).toLoadRect.shape.Idx) :
    tbM0_1.view.readAt (Elt F) (Rect.unit (s := S8) off S1.size inb).toLoadRect xt x = xt (Shape.Idx.ofFin k) := by
  subst hk
  show xt ((Rect.unit (s := S8) ![k.val] S1.size inb).toLoadRect.idx x) = xt (Shape.Idx.ofFin k)
  refine congrArg xt ?_
  funext b
  apply Fin.ext
  have hb : b = 0 := Subsingleton.elim _ _
  subst hb
  have hx : (x 0).val < 1 := (x 0).isLt
  show k.val + 1 * (x 0).val = k.val
  omega

/-- The guard at point `8·i + j`, over any contents `x0`, `x1` of the two tables: the four words loaded are `x0 i`, `x1 i`,
    `x0 j`, `x1 j`, so the guard says `x0 j ≤ x1 i` and `x0 i ≤ x1 j` as signed integers. -/
theorem guard_iff (x0 x1 : Vec F S8 .i32) (t : Fin grid0.N) (i j : Fin 8) (ht : t.val = 8 * i.val + j.val) :
    cond0_1 (grid0.coords t)
        (tbM0_0.view.readAt (Elt F) (Rect.unit (s := S8) (k0_off1 (grid0.coords t)) S1.size (k0_off1_inb (grid0.coords t))).toLoadRect x0 (Shape.Idx.first (numel1_S1.symm ▸ Nat.one_pos)))
        (tbM0_1.view.readAt (Elt F) (Rect.unit (s := S8) (k0_off1 (grid0.coords t)) S1.size (k0_off1_inb (grid0.coords t))).toLoadRect x1 (Shape.Idx.first (numel1_S1.symm ▸ Nat.one_pos)))
        (tbM0_0.view.readAt (Elt F) (Rect.unit (s := S8) (k0_off2 (grid0.coords t)) S1.size (k0_off2_inb (grid0.coords t))).toLoadRect x0 (Shape.Idx.first (numel1_S1.symm ▸ Nat.one_pos)))
        (tbM0_1.view.readAt (Elt F) (Rect.unit (s := S8) (k0_off2 (grid0.coords t)) S1.size (k0_off2_inb (grid0.coords t))).toLoadRect x1 (Shape.Idx.first (numel1_S1.symm ▸ Nat.one_pos)))
      ↔ (x0 (Shape.Idx.ofFin j)).toInt ≤ (x1 (Shape.Idx.ofFin i)).toInt ∧ (x0 (Shape.Idx.ofFin i)).toInt ≤ (x1 (Shape.Idx.ofFin j)).toInt := by
  have o1 : k0_off1 (grid0.coords t) = ![i.val] := (off1_eq t).trans (by rw [show t.val / 8 = i.val from by omega])
  have o2 : k0_off2 (grid0.coords t) = ![j.val] := (off2_eq t).trans (by rw [show t.val % 8 = j.val from by omega])
  exact cond_iff_of_eq (tb0_read x0 _ _ i o1 _) (tb1_read x1 _ _ i o1 _) (tb0_read x0 _ _ j o2 _) (tb1_read x1 _ _ j o2 _)

/-! ## At the launch memory -/

variable (m : (ℓ : Loc nD τ sig) → Buf (Elt F) ℓ)

/-- The predictions' column block at point `(i, j)`: rows of tile `i`. -/
theorem iblk0 (hO : Ok m) (c : Dev nD) (i j : Fin 8) (r : Fin 1024) :
    (iblk m hO c 0 (pt m hO i j) : Vec F S1024x1 .f32) (ixP r) = (V m c main_v27 : Vec F S8192x1 .f32) (ixP (tileIx i r)) := by
  unfold iblk
  exact blk0_read (adm m hO) (V m c main_v27) (pt m hO i j) i j rfl r
/-- The predictions' row block at point `(i, j)`: columns of tile `j`. -/
theorem iblk1 (hO : Ok m) (c : Dev nD) (i j : Fin 8) (s : Fin 1024) :
    (iblk m hO c 1 (pt m hO i j) : Vec F S1x1024 .f32) (i1q s) = (V m c main_v28 : Vec F S1x8192 .f32) (i1q (tileIx j s)) := by
  unfold iblk
  exact blk1_read (adm m hO) (V m c main_v28) (pt m hO i j) i j rfl s
/-- The targets' column block. -/
theorem iblk2 (hO : Ok m) (c : Dev nD) (i j : Fin 8) (r : Fin 1024) :
    (iblk m hO c 2 (pt m hO i j) : Vec F S1024x1 .f32) (ixP r) = (V m c main_v29 : Vec F S8192x1 .f32) (ixP (tileIx i r)) := by
  unfold iblk
  exact blk2_read (adm m hO) (V m c main_v29) (pt m hO i j) i j rfl r
/-- The targets' row block. -/
theorem iblk3 (hO : Ok m) (c : Dev nD) (i j : Fin 8) (s : Fin 1024) :
    (iblk m hO c 3 (pt m hO i j) : Vec F S1x1024 .f32) (i1q s) = (V m c main_v30 : Vec F S1x8192 .f32) (i1q (tileIx j s)) := by
  unfold iblk
  exact blk3_read (adm m hO) (V m c main_v30) (pt m hO i j) i j rfl s
/-- The group ids' column block. -/
theorem iblk4 (hO : Ok m) (c : Dev nD) (i j : Fin 8) (r : Fin 1024) :
    (iblk m hO c 4 (pt m hO i j) : Vec F S1024x1 .i32) (ixP r) = (V m c main_v31 : Vec F S8192x1 .i32) (ixP (tileIx i r)) := by
  unfold iblk
  exact blk4_read (adm m hO) (V m c main_v31) (pt m hO i j) i j rfl r
/-- The group ids' row block. -/
theorem iblk5 (hO : Ok m) (c : Dev nD) (i j : Fin 8) (s : Fin 1024) :
    (iblk m hO c 5 (pt m hO i j) : Vec F S1x1024 .i32) (i1q s) = (V m c main_v32 : Vec F S1x8192 .i32) (i1q (tileIx j s)) := by
  unfold iblk
  exact blk5_read (adm m hO) (V m c main_v32) (pt m hO i j) i j rfl s

/-- The body's guard at point `(i, j)`, decoded: as signed integers, the first table at `j` is at most the second at `i`,
    and the first at `i` at most the second at `j`. -/
theorem meets_iff (hO : Ok m) (i j : Fin 8) :
    Meets m hO (pt m hO i j) ↔
      ((tbl m 0 : Vec F S8 .i32) (Shape.Idx.ofFin j)).toInt ≤ ((tbl m 1 : Vec F S8 .i32) (Shape.Idx.ofFin i)).toInt
      ∧ ((tbl m 0 : Vec F S8 .i32) (Shape.Idx.ofFin i)).toInt ≤ ((tbl m 1 : Vec F S8 .i32) (Shape.Idx.ofFin j)).toInt := by
  unfold Meets
  exact guard_iff (tbl m 0) (tbl m 1) (pt m hO i j) i j rfl

end Cert.KernelIdeal.Blocks

end
-- ==== Proof.Payload.lean ====
/-
  The kernel body's arithmetic on one 1024 × 1024 tile, read at the extended reals: the tile's sum is the double sum,
  over the rows `r` and columns `s` of the tile, of the hinge `max ((1/2 − p_r) + p_s) 0` on the pairs with equal group id
  and `t_s + eps < t_r`; the tile's count, converted to a 32-bit word, is the number of those pairs.
-/
import proofs.«417551_j53944789238504_3_alg».proof.Proof.Gen.KernelIdeal.Skeleton
import proofs.«417551_j53944789238504_3_alg».proof.Proof.Spec
import proofs.«417551_j53944789238504_3_alg».proof.Proof.TiledSum
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Ring.Finset
import Mathlib.Algebra.Order.Floor.Ring
import Mathlib.Data.EReal.Basic

noncomputable section

open Idealize.ShloMosaic

namespace Cert.KernelIdeal.Payload

open Cert.KernelIdeal Cert.KernelIdeal.Gen Cert.PairRank
open Idealize.ShloMosaic.ValueIdx
open Idealize.ShloMosaic.StableHlo.Predicate (ixP i1q ofBool_eq_one_iff cmpi_eq_iff)

/-- Row `r`, column `s` of a tile is a counted pair: equal group ids, and the row's target above the column's by more
    than `eps`. -/
def TilePair (x2 : Vec Ideal S1024x1 .f32) (x3 : Vec Ideal S1x1024 .f32) (x4 : Vec Ideal S1024x1 .i32) (x5 : Vec Ideal S1x1024 .i32)
    (r s : Fin 1024) : Prop :=
  x4 (ixP r) = x5 (i1q s) ∧ x3 (i1q s) + eps < x2 (ixP r)

/-! ## The tile's layout operations read at an index

A column or a row spread over the tile reads its own entry; the two lane sums, with the casts between them, read at the
one entry of the result as the double sum over the tile. -/

/-- A column broadcast along the rows reads the column's entry of the row. -/
theorem bcastCol_apply {α : Type} (v : S1024x1.Idx → α) (h : S1024x1.Broadcasts S1024x1024) (r s : Fin 1024) :
    broadcastTo S1024x1024 v h (ix2 r s) = v (ixP r) := by
  refine broadcastTo_apply v h (ix2 r s) (ixP r) fun ax => ?_
  match ax with
  | ⟨0, _⟩ => rfl
  | ⟨1, _⟩ => rfl

/-- A row broadcast along the columns reads the row's entry of the column. -/
theorem bcastRow_apply {α : Type} (v : S1x1024.Idx → α) (h : S1x1024.Broadcasts S1024x1024) (r s : Fin 1024) :
    broadcastTo S1024x1024 v h (ix2 r s) = v (i1q s) := by
  refine broadcastTo_apply v h (ix2 r s) (i1q s) fun ax => ?_
  match ax with
  | ⟨0, _⟩ => rfl
  | ⟨1, _⟩ => rfl

/-- The source index over row `r` of the row sums with column `k` inserted is `(r, k)`. -/
theorem lift_rows (h : S1024x1024.Reduces [1] S1024) (r k : Fin 1024) : h.lift (ix1 r) k = ix2 r k := by
  funext a
  match a with
  | ⟨0, _⟩ => exact Fin.ext rfl
  | ⟨1, _⟩ => exact Fin.ext rfl

/-- The source index over the one entry of the column sum with row `k` inserted is `(k, 0)`. -/
theorem lift_col (h : S1024x1.Reduces [0] S1) (k : Fin 1024) : h.lift (ix1 (0 : Fin 1)) k = ixP k := by
  funext a
  match a with
  | ⟨0, _⟩ => exact Fin.ext rfl
  | ⟨1, _⟩ => exact Fin.ext rfl

/-- A vector of 1024 entries viewed as a column reads, at row `r`, its entry `r`. -/
theorem castCol_apply {α : Type} (v : S1024.Idx → α) (h : S1024.ShapeCasts S1024x1) (r : Fin 1024) :
    shapeCast S1024x1 v h (ixP r) = v (ix1 r) :=
  shapeCast_apply v h _ _ (by
    rw [Shape.rowMajor_val_one, Shape.rowMajor_val_two]
    show r.val = r.val * 1 + 0
    omega)

/-- Summing a 1024 × 1024 tile along its columns, then the column of row sums along its rows, leaves at the one entry
    of the 1 × 1 result the double sum of the tile's entries. -/
theorem tileSum_apply (m : FVec Ideal S1024x1024 .f32) :
    shapeCast S1x1
        (multiReduction (F := Ideal) .add [0] S1
          (shapeCast S1024x1
            (multiReduction (F := Ideal) .add [1] S1024 m 0x00000000#32 reduces_S1024x1024_S1024 (.inl rfl) rfl)
            shapeCasts_S1024_S1024x1)
          0x00000000#32 reduces_S1024x1_S1 (.inl rfl) rfl)
        shapeCasts_S1_S1x1 (ix2 (0 : Fin 1) (0 : Fin 1))
      = ∑ r : Fin 1024, ∑ s : Fin 1024, m (ix2 r s) := by
  refine (shapeCast_a_1a_apply _ shapeCasts_S1_S1x1 (0 : Fin 1) (0 : Fin 1)).trans ?_
  refine (Ideal.multiReduction_add_single _ _ reduces_S1024x1_S1 _ _ (ix1 (0 : Fin 1))).trans ?_
  show ∑ k : Fin 1024, _ = _
  refine Finset.sum_congr rfl fun r _ => ?_
  rw [lift_col, castCol_apply]
  refine (Ideal.multiReduction_add_single m _ reduces_S1024x1024_S1024 _ _ (ix1 r)).trans ?_
  show ∑ k : Fin 1024, _ = _
  refine Finset.sum_congr rfl fun s _ => ?_
  rw [lift_rows]

/-! ## The mask

Its entry at `(r, s)` is the conjunction of two bits, widened and converted: the extended real 1 on the counted pairs and
0 elsewhere. -/

/-- A bit widened and read as a signed integer, as an extended real: 1 or 0. -/
theorem bit_value (b : BitVec 1) :
    (FloatOps.sitofp (F := Ideal) .f32 (b.setWidth 32) : EReal) = if b = 1#1 then 1 else 0 := by
  rcases BitVec.eq_zero_or_eq_one b with h | h
  · subst h
    show (((0#1 : BitVec 1).setWidth 32).toInt : ℝ) = (if (0#1 : BitVec 1) = 1#1 then (1 : EReal) else 0)
    simp
  · subst h
    show (((1#1 : BitVec 1).setWidth 32).toInt : ℝ) = (if (1#1 : BitVec 1) = 1#1 then (1 : EReal) else 0)
    simp

/-- The conjunction of two bits is 1 exactly when both are. -/
theorem andi_eq_one_iff (a b : BitVec 1) : IntOp.andi a b = 1#1 ↔ a = 1#1 ∧ b = 1#1 := by
  rcases BitVec.eq_zero_or_eq_one a with ha | ha <;> rcases BitVec.eq_zero_or_eq_one b with hb | hb <;> subst ha <;> subst hb <;> decide

/-- A bitwise conjunction at an index is the conjunction of the elements. -/
theorem andi_apply {S : Shape} {w : Nat} (a b : IVec S w) (i : S.Idx) : andi a b i = IntOp.andi (a i) (b i) := rfl
/-- An integer comparison at an index compares the elements. -/
theorem cmpi_apply {S : Shape} {w : Nat} (p : CmpIPredicate) (a b : IVec S w) (i : S.Idx) :
    cmpi p a b i = IntOp.cmpi p (a i) (b i) := rfl

open Classical in
/-- The mask at row `r`, column `s`: 1 on the counted pairs, 0 elsewhere. -/
theorem pay7_apply (x2 : Vec Ideal S1024x1 .f32) (x3 : Vec Ideal S1x1024 .f32) (x4 : Vec Ideal S1024x1 .i32) (x5 : Vec Ideal S1x1024 .i32)
    (r s : Fin 1024) :
    (k0_pay7 (F := Ideal) x2 x3 x4 x5) (ix2 r s) = if TilePair x2 x3 x4 x5 r s then (1 : EReal) else 0 := by
  unfold k0_pay7
  simp only [shapeCast_self]
  rw [sitofp_apply, extui_apply, andi_apply, cmpi_apply, cmpf_apply]
  rw [bcastCol_apply, bcastCol_apply, bcastRow_apply, bcastRow_apply, bit_value]
  refine if_congr ?_ rfl rfl
  rw [andi_eq_one_iff, cmpi_eq_iff]
  show _ ∧ BitVec.ofBool (decide (x3 (i1q s) + eps < x2 (ixP r))) = 1#1 ↔ _
  rw [ofBool_eq_one_iff, decide_eq_true_iff]
  exact Iff.rfl

/-! ## The tile's sum -/

open Classical in
/-- The tile's sum, at the one entry of the 1 × 1 result. -/
theorem pay8_value (x0 : Vec Ideal S1024x1 .f32) (x1 : Vec Ideal S1x1024 .f32) (x2 : Vec Ideal S1024x1 .f32) (x3 : Vec Ideal S1x1024 .f32)
    (x4 : Vec Ideal S1024x1 .i32) (x5 : Vec Ideal S1x1024 .i32) :
    (k0_pay8 (F := Ideal) x0 x1 x2 x3 x4 x5) (ix2 (0 : Fin 1) (0 : Fin 1))
      = ∑ r : Fin 1024, ∑ s : Fin 1024,
          if TilePair x2 x3 x4 x5 r s then max ((half - x0 (ixP r)) + x1 (i1q s)) 0 else 0 := by
  unfold k0_pay8
  refine (tileSum_apply _).trans ?_
  refine Finset.sum_congr rfl fun r _ => Finset.sum_congr rfl fun s _ => ?_
  rw [mulf_apply, pay7_apply, maximumf_apply, addf_apply, bcastCol_apply, bcastRow_apply, subf_apply, broadcast_apply,
    broadcast_apply, shapeCast_self, shapeCast_self]
  -- the two constants: the zero word is the extended real 0, the other word is `half` by definition
  have hz : (FloatOps.ofBits (F := Ideal) .f32 0x00000000#32 : EReal) = 0 := Ideal.ofBits_zero_f32
  have hh : (FloatOps.ofBits (F := Ideal) .f32 0x3F000000#32 : EReal) = half := rfl
  rw [hz, hh]
  -- the mask entry is 1 or 0, and 0 times any extended real is 0
  split_ifs
  · rw [one_mul]
  · rw [zero_mul]

/-! ## The tile's count

As an extended real it is the sum of the mask, a natural number of at most 1024 · 1024 ones; below 2³¹ the conversion to
a word neither clamps nor rounds. -/

open Classical in
/-- The tile's count as an extended real, at the one entry of the 1 × 1 result. -/
theorem pay9_value (x2 : Vec Ideal S1024x1 .f32) (x3 : Vec Ideal S1x1024 .f32) (x4 : Vec Ideal S1024x1 .i32) (x5 : Vec Ideal S1x1024 .i32) :
    (k0_pay9 (F := Ideal) x2 x3 x4 x5) (ix2 (0 : Fin 1) (0 : Fin 1))
      = ∑ r : Fin 1024, ∑ s : Fin 1024, if TilePair x2 x3 x4 x5 r s then (1 : EReal) else 0 := by
  unfold k0_pay9
  refine (tileSum_apply _).trans ?_
  exact Finset.sum_congr rfl fun r _ => Finset.sum_congr rfl fun s _ => pay7_apply x2 x3 x4 x5 r s

/-- A sum of ones and zeros in the extended reals is the number of ones. -/
theorem count_cast (P : Fin 1024 → Fin 1024 → Prop) [∀ r s, Decidable (P r s)] :
    (∑ r : Fin 1024, ∑ s : Fin 1024, if P r s then (1 : EReal) else 0)
      = ((∑ r : Fin 1024, ∑ s : Fin 1024, if P r s then 1 else 0 : ℕ) : EReal) := by
  rw [Nat.cast_sum]
  refine Finset.sum_congr rfl fun r _ => ?_
  rw [Nat.cast_sum]
  refine Finset.sum_congr rfl fun s _ => ?_
  rw [Nat.cast_ite, Nat.cast_one, Nat.cast_zero]

/-- A tile holds at most 1024 · 1024 counted pairs. -/
theorem count_le (P : Fin 1024 → Fin 1024 → Prop) [∀ r s, Decidable (P r s)] :
    (∑ r : Fin 1024, ∑ s : Fin 1024, if P r s then 1 else 0) ≤ 1024 * 1024 := by
  calc (∑ r : Fin 1024, ∑ s : Fin 1024, if P r s then 1 else 0)
      ≤ ∑ r : Fin 1024, ∑ s : Fin 1024, 1 :=
        Finset.sum_le_sum fun r _ => Finset.sum_le_sum fun s _ => by split_ifs <;> omega
    _ = 1024 * 1024 := by
        simp only [Finset.sum_const, Finset.card_univ, Fintype.card_fin, smul_eq_mul, mul_one]

/-- A natural number below 2³¹, as an extended real, converts to its own 32-bit word: the clamp is idle and the
    floor of a natural number is itself. -/
theorem fptosi_natCast (n : ℕ) (hn : n < 2 ^ 31) : Ideal.fptosi 32 ((n : ℕ) : EReal) = BitVec.ofNat 32 n := by
  rw [← EReal.coe_coe_eq_natCast]
  unfold Ideal.fptosi
  rw [Ideal.toIntClamped_coe, if_pos (Nat.cast_nonneg n), Int.floor_natCast]
  have h1 : min (((2 ^ (32 - 1) : ℕ) : ℤ) - 1) (n : ℤ) = (n : ℤ) := min_eq_right (by norm_num; omega)
  have h2 : max (-((2 ^ (32 - 1) : ℕ) : ℤ)) (n : ℤ) = (n : ℤ) := max_eq_right (by norm_num)
  rw [h1, h2]
  exact BitVec.ofInt_natCast 32 n

open Classical in
/-- The tile's count as a word. -/
theorem pay9_count (x2 : Vec Ideal S1024x1 .f32) (x3 : Vec Ideal S1x1024 .f32) (x4 : Vec Ideal S1024x1 .i32) (x5 : Vec Ideal S1x1024 .i32) :
    (fptosi (F := Ideal) 32 (k0_pay9 (F := Ideal) x2 x3 x4 x5)) (ix2 (0 : Fin 1) (0 : Fin 1))
      = BitVec.ofNat 32 (∑ r : Fin 1024, ∑ s : Fin 1024, if TilePair x2 x3 x4 x5 r s then 1 else 0) := by
  show Ideal.fptosi 32 ((k0_pay9 (F := Ideal) x2 x3 x4 x5) (ix2 (0 : Fin 1) (0 : Fin 1))) = _
  rw [pay9_value, count_cast]
  exact fptosi_natCast _ (lt_of_le_of_lt (count_le _) (by norm_num))

end Cert.KernelIdeal.Payload

end
-- ==== Proof.Pieces.lean ====
/-
  What each control case of the kernel body leaves in the two carried accumulators (the running sum and the running
  count of the row tile) and, at a row's last column tile, in the two output blocks — each as the body's own pure
  terms of the blocks it loaded.
-/
import proofs.«417551_j53944789238504_3_alg».proof.Proof.Gen.KernelIdeal.Frame
import Idealize.ShloMosaic.Lib.Pipeline.Value
import Idealize.ShloMosaic.Lib.Tactic
import Idealize.ShloMosaic.Lib.ValueIdx

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a rank-2 block, however spelt. -/
theorem hz2 : (![0, 0] : Fin 2 → Nat) = fun _ => 0 := funext fun a => by fin_cases a <;> rfl

/-- The zero offsets of a rank-3 block, however spelt. -/
theorem hz3 : (![0, 0, 0] : Fin 3 → Nat) = fun _ => 0 := funext fun a => by fin_cases a <;> rfl

/-- Case A (first column tile of a row, ranges meet): the running sum is reset to zero and the tile's sum added. -/
theorem sout0_A_0_eq (c : Dev nD) (i : grid0.Coords) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x8x128 .f32) (harg10 : arg10.IsWhole) (arg11 : Memref sig .tc .vmem S1x8x128 .i32) (harg11 : arg11.IsWhole) (arg12 : Memref sig .tc .vmem S1x1 .f32) (harg12 : arg12.IsWhole) (arg13 : Memref sig .tc .vmem S1x1 .i32) (harg13 : arg13.IsWhole) (hc0 : cond0_0 i) (hc2 : ¬cond0_2 i)
    (x0 : Vec F S1024x1 .f32) (x1 : Vec F S1x1024 .f32) (x2 : Vec F S1024x1 .f32) (x3 : Vec F S1x1024 .f32) (x4 : Vec F S1024x1 .i32) (x5 : Vec F S1x1024 .i32) (xt0 : TbBuf0 (F := F) c tbM0_0) (xt1 : TbBuf0 (F := F) c tbM0_1) (hc1 : cond0_1 i (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))) (tbM0_0.view.readAt (Elt F) (Rect.unit (s := S8) (k0_off2 i) S1.size (k0_off2_inb i)).toLoadRect xt0 (Shape.Idx.first (numel1_S1.symm ▸ Nat.one_pos))) (tbM0_1.view.readAt (Elt F) (Rect.unit (s := S8) (k0_off2 i) S1.size (k0_off2_inb i)).toLoadRect xt1 (Shape.Idx.first (numel1_S1.symm ▸ Nat.one_pos)))) :
    sout0_A_0 c i arg4 harg4 arg5 harg5 arg6 harg6 arg7 harg7 arg8 harg8 arg9 harg9 arg10 harg10 arg11 harg11 arg12 harg12 arg13 harg13 hc0 hc2 x0 x1 x2 x3 x4 x5 xt0 xt1 hc1 = k0_pay3 (k0_pay8 x0 x1 x2 x3 x4 x5) (k0_pay1 (F := F)) := by
  unfold sout0_A_0
  rw [View.read_writes_eq_canon _ _ _ (scover0_A_0 c i arg4 harg4 arg5 harg5 arg6 harg6 arg7 harg7 arg8 harg8 arg9 harg9 arg10 harg10 arg11 harg11 arg12 harg12 arg13 harg13 hc0 hc2 x0 x1 x2 x3 x4 x5 xt0 xt1 hc1)]
  unfold kernelRun0_A
  dsimp only
  sl_unfold_words
  rw [View.canon_cons_unit_zero (S := S1x1) hz2, View.readCov_unit_zero (S := S1x1) _ hz2]
  simp only [View.readAt_eq_ld, harg4.read_unread, harg5.read_unread, harg6.read_unread, harg7.read_unread, harg8.read_unread, harg9.read_unread, View.ld_unit_zero (S := S1024x1) hz2, View.ld_unit_zero (S := S1x1024) hz2]

/-- Case A: the running count is reset to zero and the tile's count added. -/
theorem sout0_A_1_eq (c : Dev nD) (i : grid0.Coords) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x8x128 .f32) (harg10 : arg10.IsWhole) (arg11 : Memref sig .tc .vmem S1x8x128 .i32) (harg11 : arg11.IsWhole) (arg12 : Memref sig .tc .vmem S1x1 .f32) (harg12 : arg12.IsWhole) (arg13 : Memref sig .tc .vmem S1x1 .i32) (harg13 : arg13.IsWhole) (hc0 : cond0_0 i) (hc2 : ¬cond0_2 i)
    (x0 : Vec F S1024x1 .f32) (x1 : Vec F S1x1024 .f32) (x2 : Vec F S1024x1 .f32) (x3 : Vec F S1x1024 .f32) (x4 : Vec F S1024x1 .i32) (x5 : Vec F S1x1024 .i32) (xt0 : TbBuf0 (F := F) c tbM0_0) (xt1 : TbBuf0 (F := F) c tbM0_1) (hc1 : cond0_1 i (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))) (tbM0_0.view.readAt (Elt F) (Rect.unit (s := S8) (k0_off2 i) S1.size (k0_off2_inb i)).toLoadRect xt0 (Shape.Idx.first (numel1_S1.symm ▸ Nat.one_pos))) (tbM0_1.view.readAt (Elt F) (Rect.unit (s := S8) (k0_off2 i) S1.size (k0_off2_inb i)).toLoadRect xt1 (Shape.Idx.first (numel1_S1.symm ▸ Nat.one_pos)))) :
    sout0_A_1 c i arg4 harg4 arg5 harg5 arg6 harg6 arg7 harg7 arg8 harg8 arg9 harg9 arg10 harg10 arg11 harg11 arg12 harg12 arg13 harg13 hc0 hc2 x0 x1 x2 x3 x4 x5 xt0 xt1 hc1 = k0_pay4 (k0_pay9 x2 x3 x4 x5) k0_pay2 := by
  unfold sout0_A_1
  rw [View.read_writes_eq_canon _ _ _ (scover0_A_1 c i arg4 harg4 arg5 harg5 arg6 harg6 arg7 harg7 arg8 harg8 arg9 harg9 arg10 harg10 arg11 harg11 arg12 harg12 arg13 harg13 hc0 hc2 x0 x1 x2 x3 x4 x5 xt0 xt1 hc1)]
  unfold kernelRun0_A
  dsimp only
  sl_unfold_words
  rw [View.canon_cons_unit_zero (S := S1x1) hz2, View.readCov_unit_zero (S := S1x1) _ hz2]
  simp only [View.readAt_eq_ld, harg6.read_unread, harg7.read_unread, harg8.read_unread, harg9.read_unread, View.ld_unit_zero (S := S1024x1) hz2, View.ld_unit_zero (S := S1x1024) hz2]

/-- Case B (first column tile, ranges apart): the running sum is reset to zero. -/
theorem sout0_B_0_eq (c : Dev nD) (i : grid0.Coords) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x8x128 .f32) (harg10 : arg10.IsWhole) (arg11 : Memref sig .tc .vmem S1x8x128 .i32) (harg11 : arg11.IsWhole) (arg12 : Memref sig .tc .vmem S1x1 .f32) (harg12 : arg12.IsWhole) (arg13 : Memref sig .tc .vmem S1x1 .i32) (harg13 : arg13.IsWhole) (hc0 : cond0_0 i) (hc2 : ¬cond0_2 i)
    (x0 : Vec F S1024x1 .f32) (x1 : Vec F S1x1024 .f32) (x2 : Vec F S1024x1 .f32) (x3 : Vec F S1x1024 .f32) (x4 : Vec F S1024x1 .i32) (x5 : Vec F S1x1024 .i32) (xt0 : TbBuf0 (F := F) c tbM0_0) (xt1 : TbBuf0 (F := F) c tbM0_1) (hc1 : ¬cond0_1 i (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))) (tbM0_0.view.readAt (Elt F) (Rect.unit (s := S8) (k0_off2 i) S1.size (k0_off2_inb i)).toLoadRect xt0 (Shape.Idx.first (numel1_S1.symm ▸ Nat.one_pos))) (tbM0_1.view.readAt (Elt F) (Rect.unit (s := S8) (k0_off2 i) S1.size (k0_off2_inb i)).toLoadRect xt1 (Shape.Idx.first (numel1_S1.symm ▸ Nat.one_pos)))) :
    sout0_B_0 c i arg4 harg4 arg5 harg5 arg6 harg6 arg7 harg7 arg8 harg8 arg9 harg9 arg10 harg10 arg11 harg11 arg12 harg12 arg13 harg13 hc0 hc2 x0 x1 x2 x3 x4 x5 xt0 xt1 hc1 = k0_pay1 (F := F) := by
  unfold sout0_B_0
  rw [View.read_writes_eq_canon _ _ _ (scover0_B_0 c i arg4 harg4 arg5 harg5 arg6 harg6 arg7 harg7 arg8 harg8 arg9 harg9 arg10 harg10 arg11 harg11 arg12 harg12 arg13 harg13 hc0 hc2 x0 x1 x2 x3 x4 x5 xt0 xt1 hc1)]
  unfold kernelRun0_B
  dsimp only
  sl_unfold_words
  rw [View.canon_unit_zero (S := S1x1) hz2]

/-- Case B: the running count is reset to zero. -/
theorem sout0_B_1_eq (c : Dev nD) (i : grid0.Coords) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x8x128 .f32) (harg10 : arg10.IsWhole) (arg11 : Memref sig .tc .vmem S1x8x128 .i32) (harg11 : arg11.IsWhole) (arg12 : Memref sig .tc .vmem S1x1 .f32) (harg12 : arg12.IsWhole) (arg13 : Memref sig .tc .vmem S1x1 .i32) (harg13 : arg13.IsWhole) (hc0 : cond0_0 i) (hc2 : ¬cond0_2 i)
    (x0 : Vec F S1024x1 .f32) (x1 : Vec F S1x1024 .f32) (x2 : Vec F S1024x1 .f32) (x3 : Vec F S1x1024 .f32) (x4 : Vec F S1024x1 .i32) (x5 : Vec F S1x1024 .i32) (xt0 : TbBuf0 (F := F) c tbM0_0) (xt1 : TbBuf0 (F := F) c tbM0_1) (hc1 : ¬cond0_1 i (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))) (tbM0_0.view.readAt (Elt F) (Rect.unit (s := S8) (k0_off2 i) S1.size (k0_off2_inb i)).toLoadRect xt0 (Shape.Idx.first (numel1_S1.symm ▸ Nat.one_pos))) (tbM0_1.view.readAt (Elt F) (Rect.unit (s := S8) (k0_off2 i) S1.size (k0_off2_inb i)).toLoadRect xt1 (Shape.Idx.first (numel1_S1.symm ▸ Nat.one_pos)))) :
    sout0_B_1 c i arg4 harg4 arg5 harg5 arg6 harg6 arg7 harg7 arg8 harg8 arg9 harg9 arg10 harg10 arg11 harg11 arg12 harg12 arg13 harg13 hc0 hc2 x0 x1 x2 x3 x4 x5 xt0 xt1 hc1 = k0_pay2 := by
  unfold sout0_B_1
  rw [View.read_writes_eq_canon _ _ _ (scover0_B_1 c i arg4 harg4 arg5 harg5 arg6 harg6 arg7 harg7 arg8 harg8 arg9 harg9 arg10 harg10 arg11 harg11 arg12 harg12 arg13 harg13 hc0 hc2 x0 x1 x2 x3 x4 x5 xt0 xt1 hc1)]
  unfold kernelRun0_B
  dsimp only
  sl_unfold_words
  rw [View.canon_unit_zero (S := S1x1) hz2]

/-- Case C (a middle column tile, ranges meet): the tile's sum is added to what the point before left. -/
theorem sout0_C_0_eq (c : Dev nD) (i : grid0.Coords) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x8x128 .f32) (harg10 : arg10.IsWhole) (arg11 : Memref sig .tc .vmem S1x8x128 .i32) (harg11 : arg11.IsWhole) (arg12 : Memref sig .tc .vmem S1x1 .f32) (harg12 : arg12.IsWhole) (arg13 : Memref sig .tc .vmem S1x1 .i32) (harg13 : arg13.IsWhole) (hc0 : ¬cond0_0 i) (hc2 : ¬cond0_2 i)
    (x0 : Vec F S1024x1 .f32) (x1 : Vec F S1x1024 .f32) (x2 : Vec F S1024x1 .f32) (x3 : Vec F S1x1024 .f32) (x4 : Vec F S1024x1 .i32) (x5 : Vec F S1x1024 .i32) (xt0 : TbBuf0 (F := F) c tbM0_0) (xt1 : TbBuf0 (F := F) c tbM0_1) (xs0 : Vec F S1x1 .f32) (xs1 : Vec F S1x1 .i32) (hc1 : cond0_1 i (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))) (tbM0_0.view.readAt (Elt F) (Rect.unit (s := S8) (k0_off2 i) S1.size (k0_off2_inb i)).toLoadRect xt0 (Shape.Idx.first (numel1_S1.symm ▸ Nat.one_pos))) (tbM0_1.view.readAt (Elt F) (Rect.unit (s := S8) (k0_off2 i) S1.size (k0_off2_inb i)).toLoadRect xt1 (Shape.Idx.first (numel1_S1.symm ▸ Nat.one_pos)))) :
    sout0_C_0 c i arg4 harg4 arg5 harg5 arg6 harg6 arg7 harg7 arg8 harg8 arg9 harg9 arg10 harg10 arg11 harg11 arg12 harg12 arg13 harg13 hc0 hc2 x0 x1 x2 x3 x4 x5 xt0 xt1 xs0 xs1 hc1 = k0_pay3 (k0_pay8 x0 x1 x2 x3 x4 x5) xs0 := by
  unfold sout0_C_0
  rw [View.read_writes_eq_canon _ _ _ (scover0_C_0 c i arg4 harg4 arg5 harg5 arg6 harg6 arg7 harg7 arg8 harg8 arg9 harg9 arg10 harg10 arg11 harg11 arg12 harg12 arg13 harg13 hc0 hc2 x0 x1 x2 x3 x4 x5 xt0 xt1 xs0 xs1 hc1)]
  unfold kernelRun0_C
  dsimp only
  sl_unfold_words
  rw [View.canon_unit_zero (S := S1x1) hz2]
  simp only [View.readAt_eq_ld, harg4.read_unread, harg5.read_unread, harg6.read_unread, harg7.read_unread, harg8.read_unread, harg9.read_unread, harg12.read_unread, View.ld_unit_zero (S := S1024x1) hz2, View.ld_unit_zero (S := S1x1024) hz2, View.ld_unit_zero (S := S1x1) hz2]

/-- Case C: the tile's count is added to what the point before left. -/
theorem sout0_C_1_eq (c : Dev nD) (i : grid0.Coords) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x8x128 .f32) (harg10 : arg10.IsWhole) (arg11 : Memref sig .tc .vmem S1x8x128 .i32) (harg11 : arg11.IsWhole) (arg12 : Memref sig .tc .vmem S1x1 .f32) (harg12 : arg12.IsWhole) (arg13 : Memref sig .tc .vmem S1x1 .i32) (harg13 : arg13.IsWhole) (hc0 : ¬cond0_0 i) (hc2 : ¬cond0_2 i)
    (x0 : Vec F S1024x1 .f32) (x1 : Vec F S1x1024 .f32) (x2 : Vec F S1024x1 .f32) (x3 : Vec F S1x1024 .f32) (x4 : Vec F S1024x1 .i32) (x5 : Vec F S1x1024 .i32) (xt0 : TbBuf0 (F := F) c tbM0_0) (xt1 : TbBuf0 (F := F) c tbM0_1) (xs0 : Vec F S1x1 .f32) (xs1 : Vec F S1x1 .i32) (hc1 : cond0_1 i (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))) (tbM0_0.view.readAt (Elt F) (Rect.unit (s := S8) (k0_off2 i) S1.size (k0_off2_inb i)).toLoadRect xt0 (Shape.Idx.first (numel1_S1.symm ▸ Nat.one_pos))) (tbM0_1.view.readAt (Elt F) (Rect.unit (s := S8) (k0_off2 i) S1.size (k0_off2_inb i)).toLoadRect xt1 (Shape.Idx.first (numel1_S1.symm ▸ Nat.one_pos)))) :
    sout0_C_1 c i arg4 harg4 arg5 harg5 arg6 harg6 arg7 harg7 arg8 harg8 arg9 harg9 arg10 harg10 arg11 harg11 arg12 harg12 arg13 harg13 hc0 hc2 x0 x1 x2 x3 x4 x5 xt0 xt1 xs0 xs1 hc1 = k0_pay4 (k0_pay9 x2 x3 x4 x5) xs1 := by
  unfold sout0_C_1
  rw [View.read_writes_eq_canon _ _ _ (scover0_C_1 c i arg4 harg4 arg5 harg5 arg6 harg6 arg7 harg7 arg8 harg8 arg9 harg9 arg10 harg10 arg11 harg11 arg12 harg12 arg13 harg13 hc0 hc2 x0 x1 x2 x3 x4 x5 xt0 xt1 xs0 xs1 hc1)]
  unfold kernelRun0_C
  dsimp only
  sl_unfold_words
  rw [View.canon_unit_zero (S := S1x1) hz2]
  simp only [View.readAt_eq_ld, harg6.read_unread, harg7.read_unread, harg8.read_unread, harg9.read_unread, harg13.read_unread, View.ld_unit_zero (S := S1024x1) hz2, View.ld_unit_zero (S := S1x1024) hz2, View.ld_unit_zero (S := S1x1) hz2]

/-- Case E (the last column tile, ranges meet): the tile's sum is added to what the point before left. -/
theorem sout0_E_0_eq (c : Dev nD) (i : grid0.Coords) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x8x128 .f32) (harg10 : arg10.IsWhole) (arg11 : Memref sig .tc .vmem S1x8x128 .i32) (harg11 : arg11.IsWhole) (arg12 : Memref sig .tc .vmem S1x1 .f32) (harg12 : arg12.IsWhole) (arg13 : Memref sig .tc .vmem S1x1 .i32) (harg13 : arg13.IsWhole) (hc0 : ¬cond0_0 i) (hc2 : cond0_2 i)
    (x0 : Vec F S1024x1 .f32) (x1 : Vec F S1x1024 .f32) (x2 : Vec F S1024x1 .f32) (x3 : Vec F S1x1024 .f32) (x4 : Vec F S1024x1 .i32) (x5 : Vec F S1x1024 .i32) (xt0 : TbBuf0 (F := F) c tbM0_0) (xt1 : TbBuf0 (F := F) c tbM0_1) (xs0 : Vec F S1x1 .f32) (xs1 : Vec F S1x1 .i32) (hc1 : cond0_1 i (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))) (tbM0_0.view.readAt (Elt F) (Rect.unit (s := S8) (k0_off2 i) S1.size (k0_off2_inb i)).toLoadRect xt0 (Shape.Idx.first (numel1_S1.symm ▸ Nat.one_pos))) (tbM0_1.view.readAt (Elt F) (Rect.unit (s := S8) (k0_off2 i) S1.size (k0_off2_inb i)).toLoadRect xt1 (Shape.Idx.first (numel1_S1.symm ▸ Nat.one_pos)))) :
    sout0_E_0 c i arg4 harg4 arg5 harg5 arg6 harg6 arg7 harg7 arg8 harg8 arg9 harg9 arg10 harg10 arg11 harg11 arg12 harg12 arg13 harg13 hc0 hc2 x0 x1 x2 x3 x4 x5 xt0 xt1 xs0 xs1 hc1 = k0_pay3 (k0_pay8 x0 x1 x2 x3 x4 x5) xs0 := by
  unfold sout0_E_0
  rw [View.read_writes_eq_canon _ _ _ (scover0_E_0 c i arg4 harg4 arg5 harg5 arg6 harg6 arg7 harg7 arg8 harg8 arg9 harg9 arg10 harg10 arg11 harg11 arg12 harg12 arg13 harg13 hc0 hc2 x0 x1 x2 x3 x4 x5 xt0 xt1 xs0 xs1 hc1)]
  unfold kernelRun0_E
  dsimp only
  sl_unfold_words
  rw [View.canon_unit_zero (S := S1x1) hz2]
  simp only [View.readAt_eq_ld, harg4.read_unread, harg5.read_unread, harg6.read_unread, harg7.read_unread, harg8.read_unread, harg9.read_unread, harg12.read_unread, View.ld_unit_zero (S := S1024x1) hz2, View.ld_unit_zero (S := S1x1024) hz2, View.ld_unit_zero (S := S1x1) hz2]

/-- Case E: the tile's count is added to what the point before left. -/
theorem sout0_E_1_eq (c : Dev nD) (i : grid0.Coords) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x8x128 .f32) (harg10 : arg10.IsWhole) (arg11 : Memref sig .tc .vmem S1x8x128 .i32) (harg11 : arg11.IsWhole) (arg12 : Memref sig .tc .vmem S1x1 .f32) (harg12 : arg12.IsWhole) (arg13 : Memref sig .tc .vmem S1x1 .i32) (harg13 : arg13.IsWhole) (hc0 : ¬cond0_0 i) (hc2 : cond0_2 i)
    (x0 : Vec F S1024x1 .f32) (x1 : Vec F S1x1024 .f32) (x2 : Vec F S1024x1 .f32) (x3 : Vec F S1x1024 .f32) (x4 : Vec F S1024x1 .i32) (x5 : Vec F S1x1024 .i32) (xt0 : TbBuf0 (F := F) c tbM0_0) (xt1 : TbBuf0 (F := F) c tbM0_1) (xs0 : Vec F S1x1 .f32) (xs1 : Vec F S1x1 .i32) (hc1 : cond0_1 i (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))) (tbM0_0.view.readAt (Elt F) (Rect.unit (s := S8) (k0_off2 i) S1.size (k0_off2_inb i)).toLoadRect xt0 (Shape.Idx.first (numel1_S1.symm ▸ Nat.one_pos))) (tbM0_1.view.readAt (Elt F) (Rect.unit (s := S8) (k0_off2 i) S1.size (k0_off2_inb i)).toLoadRect xt1 (Shape.Idx.first (numel1_S1.symm ▸ Nat.one_pos)))) :
    sout0_E_1 c i arg4 harg4 arg5 harg5 arg6 harg6 arg7 harg7 arg8 harg8 arg9 harg9 arg10 harg10 arg11 harg11 arg12 harg12 arg13 harg13 hc0 hc2 x0 x1 x2 x3 x4 x5 xt0 xt1 xs0 xs1 hc1 = k0_pay4 (k0_pay9 x2 x3 x4 x5) xs1 := by
  unfold sout0_E_1
  rw [View.read_writes_eq_canon _ _ _ (scover0_E_1 c i arg4 harg4 arg5 harg5 arg6 harg6 arg7 harg7 arg8 harg8 arg9 harg9 arg10 harg10 arg11 harg11 arg12 harg12 arg13 harg13 hc0 hc2 x0 x1 x2 x3 x4 x5 xt0 xt1 xs0 xs1 hc1)]
  unfold kernelRun0_E
  dsimp only
  sl_unfold_words
  rw [View.canon_unit_zero (S := S1x1) hz2]
  simp only [View.readAt_eq_ld, harg6.read_unread, harg7.read_unread, harg8.read_unread, harg9.read_unread, harg13.read_unread, View.ld_unit_zero (S := S1024x1) hz2, View.ld_unit_zero (S := S1x1024) hz2, View.ld_unit_zero (S := S1x1) hz2]

/-- Case E: the output block is the finished running sum, spread over the block. -/
theorem out0_E_6_eq (c : Dev nD) (i : grid0.Coords) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x8x128 .f32) (harg10 : arg10.IsWhole) (arg11 : Memref sig .tc .vmem S1x8x128 .i32) (harg11 : arg11.IsWhole) (arg12 : Memref sig .tc .vmem S1x1 .f32) (harg12 : arg12.IsWhole) (arg13 : Memref sig .tc .vmem S1x1 .i32) (harg13 : arg13.IsWhole) (hc0 : ¬cond0_0 i) (hc2 : cond0_2 i)
    (x0 : Vec F S1024x1 .f32) (x1 : Vec F S1x1024 .f32) (x2 : Vec F S1024x1 .f32) (x3 : Vec F S1x1024 .f32) (x4 : Vec F S1024x1 .i32) (x5 : Vec F S1x1024 .i32) (xt0 : TbBuf0 (F := F) c tbM0_0) (xt1 : TbBuf0 (F := F) c tbM0_1) (xs0 : Vec F S1x1 .f32) (xs1 : Vec F S1x1 .i32) (hc1 : cond0_1 i (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))) (tbM0_0.view.readAt (Elt F) (Rect.unit (s := S8) (k0_off2 i) S1.size (k0_off2_inb i)).toLoadRect xt0 (Shape.Idx.first (numel1_S1.symm ▸ Nat.one_pos))) (tbM0_1.view.readAt (Elt F) (Rect.unit (s := S8) (k0_off2 i) S1.size (k0_off2_inb i)).toLoadRect xt1 (Shape.Idx.first (numel1_S1.symm ▸ Nat.one_pos)))) :
    out0_E_6 c i arg4 harg4 arg5 harg5 arg6 harg6 arg7 harg7 arg8 harg8 arg9 harg9 arg10 harg10 arg11 harg11 arg12 harg12 arg13 harg13 hc0 hc2 x0 x1 x2 x3 x4 x5 xt0 xt1 xs0 xs1 hc1 = k0_pay5 (k0_pay3 (k0_pay8 x0 x1 x2 x3 x4 x5) xs0) := by
  unfold out0_E_6
  rw [View.read_writes_eq_canon _ _ _ (cover0_E_6 c i arg4 harg4 arg5 harg5 arg6 harg6 arg7 harg7 arg8 harg8 arg9 harg9 arg10 harg10 arg11 harg11 arg12 harg12 arg13 harg13 hc0 hc2 x0 x1 x2 x3 x4 x5 xt0 xt1 xs0 xs1 hc1)]
  unfold kernelRun0_E
  dsimp only
  sl_unfold_words
  rw [View.canon_unit_zero (S := S1x8x128) hz3, View.readCov_unit_zero (S := S1x1) _ hz2]
  simp only [View.readAt_eq_ld, harg4.read_unread, harg5.read_unread, harg6.read_unread, harg7.read_unread, harg8.read_unread, harg9.read_unread, harg12.read_unread, View.ld_unit_zero (S := S1024x1) hz2, View.ld_unit_zero (S := S1x1024) hz2, View.ld_unit_zero (S := S1x1) hz2]

/-- Case E: the output block is the finished running count, spread over the block. -/
theorem out0_E_7_eq (c : Dev nD) (i : grid0.Coords) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x8x128 .f32) (harg10 : arg10.IsWhole) (arg11 : Memref sig .tc .vmem S1x8x128 .i32) (harg11 : arg11.IsWhole) (arg12 : Memref sig .tc .vmem S1x1 .f32) (harg12 : arg12.IsWhole) (arg13 : Memref sig .tc .vmem S1x1 .i32) (harg13 : arg13.IsWhole) (hc0 : ¬cond0_0 i) (hc2 : cond0_2 i)
    (x0 : Vec F S1024x1 .f32) (x1 : Vec F S1x1024 .f32) (x2 : Vec F S1024x1 .f32) (x3 : Vec F S1x1024 .f32) (x4 : Vec F S1024x1 .i32) (x5 : Vec F S1x1024 .i32) (xt0 : TbBuf0 (F := F) c tbM0_0) (xt1 : TbBuf0 (F := F) c tbM0_1) (xs0 : Vec F S1x1 .f32) (xs1 : Vec F S1x1 .i32) (hc1 : cond0_1 i (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))) (tbM0_0.view.readAt (Elt F) (Rect.unit (s := S8) (k0_off2 i) S1.size (k0_off2_inb i)).toLoadRect xt0 (Shape.Idx.first (numel1_S1.symm ▸ Nat.one_pos))) (tbM0_1.view.readAt (Elt F) (Rect.unit (s := S8) (k0_off2 i) S1.size (k0_off2_inb i)).toLoadRect xt1 (Shape.Idx.first (numel1_S1.symm ▸ Nat.one_pos)))) :
    out0_E_7 c i arg4 harg4 arg5 harg5 arg6 harg6 arg7 harg7 arg8 harg8 arg9 harg9 arg10 harg10 arg11 harg11 arg12 harg12 arg13 harg13 hc0 hc2 x0 x1 x2 x3 x4 x5 xt0 xt1 xs0 xs1 hc1 = k0_pay6 (F := F) (k0_pay4 (k0_pay9 x2 x3 x4 x5) xs1) := by
  unfold out0_E_7
  rw [View.read_writes_eq_canon _ _ _ (cover0_E_7 c i arg4 harg4 arg5 harg5 arg6 harg6 arg7 harg7 arg8 harg8 arg9 harg9 arg10 harg10 arg11 harg11 arg12 harg12 arg13 harg13 hc0 hc2 x0 x1 x2 x3 x4 x5 xt0 xt1 xs0 xs1 hc1)]
  unfold kernelRun0_E
  dsimp only
  sl_unfold_words
  rw [View.canon_unit_zero (S := S1x8x128) hz3, View.readCov_unit_zero (S := S1x1) _ hz2]
  simp only [View.readAt_eq_ld, harg6.read_unread, harg7.read_unread, harg8.read_unread, harg9.read_unread, harg13.read_unread, View.ld_unit_zero (S := S1024x1) hz2, View.ld_unit_zero (S := S1x1024) hz2, View.ld_unit_zero (S := S1x1) hz2]

/-- Case F (the last column tile, ranges apart): the output block is what the point before left of the sum, spread over the block. -/
theorem out0_F_6_eq (c : Dev nD) (i : grid0.Coords) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x8x128 .f32) (harg10 : arg10.IsWhole) (arg11 : Memref sig .tc .vmem S1x8x128 .i32) (harg11 : arg11.IsWhole) (arg12 : Memref sig .tc .vmem S1x1 .f32) (harg12 : arg12.IsWhole) (arg13 : Memref sig .tc .vmem S1x1 .i32) (harg13 : arg13.IsWhole) (hc0 : ¬cond0_0 i) (hc2 : cond0_2 i)
    (x0 : Vec F S1024x1 .f32) (x1 : Vec F S1x1024 .f32) (x2 : Vec F S1024x1 .f32) (x3 : Vec F S1x1024 .f32) (x4 : Vec F S1024x1 .i32) (x5 : Vec F S1x1024 .i32) (xt0 : TbBuf0 (F := F) c tbM0_0) (xt1 : TbBuf0 (F := F) c tbM0_1) (xs0 : Vec F S1x1 .f32) (xs1 : Vec F S1x1 .i32) (hc1 : ¬cond0_1 i (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))) (tbM0_0.view.readAt (Elt F) (Rect.unit (s := S8) (k0_off2 i) S1.size (k0_off2_inb i)).toLoadRect xt0 (Shape.Idx.first (numel1_S1.symm ▸ Nat.one_pos))) (tbM0_1.view.readAt (Elt F) (Rect.unit (s := S8) (k0_off2 i) S1.size (k0_off2_inb i)).toLoadRect xt1 (Shape.Idx.first (numel1_S1.symm ▸ Nat.one_pos)))) :
    out0_F_6 c i arg4 harg4 arg5 harg5 arg6 harg6 arg7 harg7 arg8 harg8 arg9 harg9 arg10 harg10 arg11 harg11 arg12 harg12 arg13 harg13 hc0 hc2 x0 x1 x2 x3 x4 x5 xt0 xt1 xs0 xs1 hc1 = k0_pay5 xs0 := by
  unfold out0_F_6
  rw [View.read_writes_eq_canon _ _ _ (cover0_F_6 c i arg4 harg4 arg5 harg5 arg6 harg6 arg7 harg7 arg8 harg8 arg9 harg9 arg10 harg10 arg11 harg11 arg12 harg12 arg13 harg13 hc0 hc2 x0 x1 x2 x3 x4 x5 xt0 xt1 xs0 xs1 hc1)]
  unfold kernelRun0_F
  dsimp only
  sl_unfold_words
  rw [View.canon_unit_zero (S := S1x8x128) hz3]
  simp only [View.readAt_eq_ld, harg12.read_unread, View.ld_unit_zero (S := S1x1) hz2]

/-- Case F: the output block is what the point before left of the count, spread over the block. -/
theorem out0_F_7_eq (c : Dev nD) (i : grid0.Coords) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1x1024 .i32) (harg9 : arg9.IsWhole) (arg10 : Memref sig .tc .vmem S1x8x128 .f32) (harg10 : arg10.IsWhole) (arg11 : Memref sig .tc .vmem S1x8x128 .i32) (harg11 : arg11.IsWhole) (arg12 : Memref sig .tc .vmem S1x1 .f32) (harg12 : arg12.IsWhole) (arg13 : Memref sig .tc .vmem S1x1 .i32) (harg13 : arg13.IsWhole) (hc0 : ¬cond0_0 i) (hc2 : cond0_2 i)
    (x0 : Vec F S1024x1 .f32) (x1 : Vec F S1x1024 .f32) (x2 : Vec F S1024x1 .f32) (x3 : Vec F S1x1024 .f32) (x4 : Vec F S1024x1 .i32) (x5 : Vec F S1x1024 .i32) (xt0 : TbBuf0 (F := F) c tbM0_0) (xt1 : TbBuf0 (F := F) c tbM0_1) (xs0 : Vec F S1x1 .f32) (xs1 : Vec F S1x1 .i32) (hc1 : ¬cond0_1 i (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))) (tbM0_0.view.readAt (Elt F) (Rect.unit (s := S8) (k0_off2 i) S1.size (k0_off2_inb i)).toLoadRect xt0 (Shape.Idx.first (numel1_S1.symm ▸ Nat.one_pos))) (tbM0_1.view.readAt (Elt F) (Rect.unit (s := S8) (k0_off2 i) S1.size (k0_off2_inb i)).toLoadRect xt1 (Shape.Idx.first (numel1_S1.symm ▸ Nat.one_pos)))) :
    out0_F_7 c i arg4 harg4 arg5 harg5 arg6 harg6 arg7 harg7 arg8 harg8 arg9 harg9 arg10 harg10 arg11 harg11 arg12 harg12 arg13 harg13 hc0 hc2 x0 x1 x2 x3 x4 x5 xt0 xt1 xs0 xs1 hc1 = k0_pay6 xs1 := by
  unfold out0_F_7
  rw [View.read_writes_eq_canon _ _ _ (cover0_F_7 c i arg4 harg4 arg5 harg5 arg6 harg6 arg7 harg7 arg8 harg8 arg9 harg9 arg10 harg10 arg11 harg11 arg12 harg12 arg13 harg13 hc0 hc2 x0 x1 x2 x3 x4 x5 xt0 xt1 xs0 xs1 hc1)]
  unfold kernelRun0_F
  dsimp only
  sl_unfold_words
  rw [View.canon_unit_zero (S := S1x8x128) hz3]
  simp only [View.readAt_eq_ld, harg13.read_unread, View.ld_unit_zero (S := S1x1) hz2]

/-- The reset value of the running sum: the 1×1 block of +0.0. -/
theorem pay1_eq : (k0_pay1 (F := F)) = broadcast S1x1 (Scalar.ofBits .f32 0x00000000#32) := by
  unfold k0_pay1
  exact shapeCast_self _ _

/-- The reset value of the running count: the 1×1 block of 0. -/
theorem pay2_eq : (k0_pay2) = (broadcast S1x1 0#32 : IVec S1x1 32) := by
  unfold k0_pay2
  exact shapeCast_self _ _

/-- The sum's update: what was there plus the tile's sum. -/
theorem pay3_eq (v53 : FVec F S1x1 .f32) (v58 : Vec F S1x1 .f32) : k0_pay3 v53 v58 = addf v58 v53 := by
  unfold k0_pay3
  exact shapeCast_self _ _

/-- The count's update: what was there plus the tile's count, converted to an integer. -/
theorem pay4_eq (v57 : FVec F S1x1 .f32) (v63 : Vec F S1x1 .i32) : k0_pay4 v57 v63 = addi v63 (fptosi 32 v57) := by
  unfold k0_pay4
  exact shapeCast_self _ _

/-- Every entry of the sum's output block is the one entry of the running sum. -/
theorem pay5_apply (v19 : Vec F S1x1 .f32) (y : S1x8x128.Idx) : k0_pay5 v19 y = v19 (ValueIdx.ix2 (0 : Fin 1) (0 : Fin 1)) := by
  unfold k0_pay5
  rw [broadcastTo_apply _ _ y (ValueIdx.ix3 (0 : Fin 1) (0 : Fin 1) (0 : Fin 1)) (fun a => by fin_cases a <;> rfl)]
  rw [shapeCast_self]
  exact shapeCast_apply v19 _ _ _ (by decide)

/-- Every entry of the count's output block is the one entry of the running count. -/
theorem pay6_apply (v24 : Vec F S1x1 .i32) (y : S1x8x128.Idx) : k0_pay6 v24 y = v24 (ValueIdx.ix2 (0 : Fin 1) (0 : Fin 1)) := by
  unfold k0_pay6
  rw [broadcastTo_apply _ _ y (ValueIdx.ix3 (0 : Fin 1) (0 : Fin 1) (0 : Fin 1)) (fun a => by fin_cases a <;> rfl)]
  rw [shapeCast_self]
  exact shapeCast_apply v24 _ _ _ (by decide)

end Cert.KernelIdeal.Pieces

end
-- ==== Proof.Accum.lean ====
/-
  The kernel's two carried accumulators along a row tile: after column tile `j` they hold the sum, over the column
  tiles so far, of what each grid point contributes to the row's running sum and running count; at the row's last
  column tile that total is spread over the row's two output blocks.
-/
import proofs.«417551_j53944789238504_3_alg».proof.Proof.Gen.KernelIdeal.Frame
import proofs.«417551_j53944789238504_3_alg».proof.Proof.Pieces
import proofs.«417551_j53944789238504_3_alg».proof.Proof.Pt
import Idealize.ShloMosaic.Lib.Pipeline.Value
import Idealize.ShloMosaic.Lib.ValueIdx
import Idealize.ShloMosaic.Lib.ValueLayout
import Idealize.ShloMosaic.PureOps.Ideal.Laws
import Mathlib.Data.BitVec
import Mathlib.Algebra.BigOperators.Fin

set_option maxRecDepth 16384

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Pt Cert.KernelIdeal.Pieces
open Idealize.ShloMosaic.ValueIdx (ix2 ix3)

variable (m : (ℓ : Loc nD τ sig) → Buf (Elt Ideal) ℓ)

/-- The row tile of grid point `t`. -/
def rowOf (hO : Ok m) (t : Fin (cfgM m hO).N) : Fin 8 :=
  ⟨t.val / 8, by have hN : (cfgM m hO).N = 64 := N_0; have := t.isLt; omega⟩

/-- The running sum and the running count left by the point before `t` (read only where `t` is not a row's first
    column tile). -/
abbrev prevS (hO : Ok m) (c : Dev nD) (t : Fin (cfgM m hO).N) : Vec Ideal S1x1 .f32 :=
  (outsAt0 m hO c (t.val - 1) (Nat.lt_of_le_of_lt (Nat.sub_le _ _) t.isLt)).2.2.1
abbrev prevC (hO : Ok m) (c : Dev nD) (t : Fin (cfgM m hO).N) : Vec Ideal S1x1 .i32 :=
  (outsAt0 m hO c (t.val - 1) (Nat.lt_of_le_of_lt (Nat.sub_le _ _) t.isLt)).2.2.2

/-! ## What one point contributes, by the branch it takes -/

/-- Where the ranges meet a point adds its tile's sum … -/
theorem contribS_pos (hO : Ok m) (c : Dev nD) (t : Fin (cfgM m hO).N) (h : Meets m hO t) :
    contribS m hO c t = (k0_pay8 (F := Ideal) (iblk m hO c 0 t) (iblk m hO c 1 t) (iblk m hO c 2 t) (iblk m hO c 3 t) (iblk m hO c 4 t) (iblk m hO c 5 t)) z11 := by
  unfold contribS
  exact if_pos h

/-- … and where they are apart, nothing. -/
theorem contribS_neg (hO : Ok m) (c : Dev nD) (t : Fin (cfgM m hO).N) (h : ¬Meets m hO t) :
    contribS m hO c t = 0 := by
  unfold contribS
  exact if_neg h

/-- Where the ranges meet a point adds its tile's count, as a word … -/
theorem contribC_pos (hO : Ok m) (c : Dev nD) (t : Fin (cfgM m hO).N) (h : Meets m hO t) :
    contribC m hO c t = (fptosi (F := Ideal) 32 (k0_pay9 (F := Ideal) (iblk m hO c 2 t) (iblk m hO c 3 t) (iblk m hO c 4 t) (iblk m hO c 5 t))) z11 := by
  unfold contribC
  exact if_pos h

/-- … and where they are apart, the zero word. -/
theorem contribC_neg (hO : Ok m) (c : Dev nD) (t : Fin (cfgM m hO).N) (h : ¬Meets m hO t) :
    contribC m hO c t = 0#32 := by
  unfold contribC
  exact if_neg h

/-! ## One step of the two accumulators -/

/-- At a row's first column tile the running sum is reset and then holds what that point contributes: `0 + x = x`. -/
theorem sum_first (hO : Ok m) (c : Dev nD) (t : Fin (cfgM m hO).N) (h0 : t.val % 8 = 0) :
    (outsAt0 m hO c t.val t.isLt).2.2.1 z11 = contribS m hO c t := by
  have h2 : ¬t.val % 8 = 7 := by omega
  by_cases h1 : Meets m hO t
  · rw [outsAt0_A m hO c t h0 h1 h2]
    dsimp only
    rw [sout0_A_0_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (tbl m 0) (tbl m 1) h1]
    rw [pay3_eq, pay1_eq, contribS_pos m hO c t h1]
    show Ideal.ofBits .f32 0x00000000#32 + _ = _
    rw [Ideal.ofBits_zero_f32, zero_add]
  · rw [outsAt0_B m hO c t h0 h1 h2]
    dsimp only
    rw [sout0_B_0_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (tbl m 0) (tbl m 1) h1]
    rw [pay1_eq, contribS_neg m hO c t h1]
    exact Ideal.ofBits_zero_f32

/-- At a later column tile the running sum is what the point before left plus what this point contributes. -/
theorem sum_step (hO : Ok m) (c : Dev nD) (t : Fin (cfgM m hO).N) (h0 : ¬t.val % 8 = 0) :
    (outsAt0 m hO c t.val t.isLt).2.2.1 z11 = prevS m hO c t z11 + contribS m hO c t := by
  by_cases h1 : Meets m hO t
  · rw [contribS_pos m hO c t h1]
    by_cases h2 : t.val % 8 = 7
    · rw [outsAt0_E m hO c t h0 h1 h2]
      dsimp only
      rw [sout0_E_0_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (tbl m 0) (tbl m 1) (prevS m hO c t) (prevC m hO c t) h1, pay3_eq]
      rfl
    · rw [outsAt0_C m hO c t h0 h1 h2]
      dsimp only
      rw [sout0_C_0_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (tbl m 0) (tbl m 1) (prevS m hO c t) (prevC m hO c t) h1, pay3_eq]
      rfl
  · rw [contribS_neg m hO c t h1, add_zero]
    by_cases h2 : t.val % 8 = 7
    · rw [outsAt0_F m hO c t h0 h1 h2]
      dsimp only
      rfl
    · rw [outsAt0_D m hO c t h0 h1 h2]
      dsimp only
      rfl

/-- At a row's first column tile the running count is reset and then holds what that point contributes. -/
theorem cnt_first (hO : Ok m) (c : Dev nD) (t : Fin (cfgM m hO).N) (h0 : t.val % 8 = 0) :
    (outsAt0 m hO c t.val t.isLt).2.2.2 z11 = contribC m hO c t := by
  have h2 : ¬t.val % 8 = 7 := by omega
  by_cases h1 : Meets m hO t
  · rw [outsAt0_A m hO c t h0 h1 h2]
    dsimp only
    rw [sout0_A_1_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (tbl m 0) (tbl m 1) h1]
    rw [pay4_eq, pay2_eq, contribC_pos m hO c t h1]
    exact BitVec.zero_add _
  · rw [outsAt0_B m hO c t h0 h1 h2]
    dsimp only
    rw [sout0_B_1_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (tbl m 0) (tbl m 1) h1]
    rw [pay2_eq, contribC_neg m hO c t h1]
    rfl

/-- At a later column tile the running count is what the point before left plus what this point contributes. -/
theorem cnt_step (hO : Ok m) (c : Dev nD) (t : Fin (cfgM m hO).N) (h0 : ¬t.val % 8 = 0) :
    (outsAt0 m hO c t.val t.isLt).2.2.2 z11 = prevC m hO c t z11 + contribC m hO c t := by
  by_cases h1 : Meets m hO t
  · rw [contribC_pos m hO c t h1]
    by_cases h2 : t.val % 8 = 7
    · rw [outsAt0_E m hO c t h0 h1 h2]
      dsimp only
      rw [sout0_E_1_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (tbl m 0) (tbl m 1) (prevS m hO c t) (prevC m hO c t) h1, pay4_eq]
      rfl
    · rw [outsAt0_C m hO c t h0 h1 h2]
      dsimp only
      rw [sout0_C_1_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (tbl m 0) (tbl m 1) (prevS m hO c t) (prevC m hO c t) h1, pay4_eq]
      rfl
  · rw [contribC_neg m hO c t h1]
    show _ = prevC m hO c t z11 + 0
    rw [add_zero]
    by_cases h2 : t.val % 8 = 7
    · rw [outsAt0_F m hO c t h0 h1 h2]
      dsimp only
      rfl
    · rw [outsAt0_D m hO c t h0 h1 h2]
      dsimp only
      rfl

/-! ## Along a row: the accumulators are partial sums over the column tiles so far -/

/-- What grid point `n` adds to the running sum, for any natural number `n` (nothing past the grid's end). -/
def termS (hO : Ok m) (c : Dev nD) (n : ℕ) : EReal :=
  if h : n < (cfgM m hO).N then contribS m hO c ⟨n, h⟩ else 0

/-- What grid point `n` adds to the running count, for any natural number `n`. -/
def termC (hO : Ok m) (c : Dev nD) (n : ℕ) : BitVec 32 :=
  if h : n < (cfgM m hO).N then contribC m hO c ⟨n, h⟩ else 0

/-- After point `n` — column tile `n % 8` of row tile `n / 8` — the running sum is the sum of the contributions of the
    row's points up to that column tile. By induction on the point: a row's first point starts the sum afresh, every
    later one adds its own term to what the point before left. -/
theorem sum_inv (hO : Ok m) (c : Dev nD) (n : ℕ) : ∀ hn : n < (cfgM m hO).N,
    (outsAt0 m hO c n hn).2.2.1 z11 = ∑ k ∈ Finset.range (n % 8 + 1), termS m hO c (8 * (n / 8) + k) := by
  induction n with
  | zero =>
    intro hn
    refine (sum_first m hO c ⟨0, hn⟩ rfl).trans ?_
    rw [Nat.zero_mod, Nat.zero_div, zero_add, Finset.sum_range_one]
    unfold termS
    rw [dif_pos hn]
  | succ n ih =>
    intro hn
    by_cases h0 : (n + 1) % 8 = 0
    · refine (sum_first m hO c ⟨n + 1, hn⟩ h0).trans ?_
      have e : 8 * ((n + 1) / 8) + 0 = n + 1 := by omega
      rw [h0, zero_add, Finset.sum_range_one, e]
      unfold termS
      rw [dif_pos hn]
    · refine (sum_step m hO c ⟨n + 1, hn⟩ h0).trans ?_
      have hm : (n + 1) % 8 = n % 8 + 1 := by omega
      have hd : (n + 1) / 8 = n / 8 := by omega
      have e : 8 * (n / 8) + (n % 8 + 1) = n + 1 := by omega
      rw [hm, hd, Finset.sum_range_succ, ← ih (Nat.lt_of_succ_lt hn), e]
      unfold termS
      rw [dif_pos hn]
      rfl

/-- The same for the running count. -/
theorem cnt_inv (hO : Ok m) (c : Dev nD) (n : ℕ) : ∀ hn : n < (cfgM m hO).N,
    (outsAt0 m hO c n hn).2.2.2 z11 = ∑ k ∈ Finset.range (n % 8 + 1), termC m hO c (8 * (n / 8) + k) := by
  induction n with
  | zero =>
    intro hn
    refine (cnt_first m hO c ⟨0, hn⟩ rfl).trans ?_
    rw [Nat.zero_mod, Nat.zero_div, zero_add, Finset.sum_range_one]
    unfold termC
    rw [dif_pos hn]
  | succ n ih =>
    intro hn
    by_cases h0 : (n + 1) % 8 = 0
    · refine (cnt_first m hO c ⟨n + 1, hn⟩ h0).trans ?_
      have e : 8 * ((n + 1) / 8) + 0 = n + 1 := by omega
      rw [h0, zero_add, Finset.sum_range_one, e]
      unfold termC
      rw [dif_pos hn]
    · refine (cnt_step m hO c ⟨n + 1, hn⟩ h0).trans ?_
      have hm : (n + 1) % 8 = n % 8 + 1 := by omega
      have hd : (n + 1) / 8 = n / 8 := by omega
      have e : 8 * (n / 8) + (n % 8 + 1) = n + 1 := by omega
      rw [hm, hd, Finset.sum_range_succ, ← ih (Nat.lt_of_succ_lt hn), e]
      unfold termC
      rw [dif_pos hn]
      rfl

/-- At a row's last column tile the running sum is the row's total: the sum over all 8 column tiles. -/
theorem sum_at_last (hO : Ok m) (c : Dev nD) (t : Fin (cfgM m hO).N) (h7 : t.val % 8 = 7) :
    (outsAt0 m hO c t.val t.isLt).2.2.1 z11 = ∑ j : Fin 8, contribS m hO c (pt m hO (rowOf m hO t) j) := by
  rw [sum_inv m hO c t.val t.isLt, h7]
  show ∑ k ∈ Finset.range 8, termS m hO c (8 * (t.val / 8) + k) = _
  rw [← Fin.sum_univ_eq_sum_range (fun k => termS m hO c (8 * (t.val / 8) + k)) 8]
  refine Finset.sum_congr rfl fun j _ => ?_
  have h : 8 * (t.val / 8) + j.val < (cfgM m hO).N := (pt m hO (rowOf m hO t) j).isLt
  unfold termS
  rw [dif_pos h]
  rfl

/-- At a row's last column tile the running count is the row's total count. -/
theorem cnt_at_last (hO : Ok m) (c : Dev nD) (t : Fin (cfgM m hO).N) (h7 : t.val % 8 = 7) :
    (outsAt0 m hO c t.val t.isLt).2.2.2 z11 = ∑ j : Fin 8, contribC m hO c (pt m hO (rowOf m hO t) j) := by
  rw [cnt_inv m hO c t.val t.isLt, h7]
  show ∑ k ∈ Finset.range 8, termC m hO c (8 * (t.val / 8) + k) = _
  rw [← Fin.sum_univ_eq_sum_range (fun k => termC m hO c (8 * (t.val / 8) + k)) 8]
  refine Finset.sum_congr rfl fun j _ => ?_
  have h : 8 * (t.val / 8) + j.val < (cfgM m hO).N := (pt m hO (rowOf m hO t) j).isLt
  unfold termC
  rw [dif_pos h]
  rfl

/-! ## The output blocks at a row's last column tile -/

/-- At a row's last column tile every entry of the sums' output block is the row tile's total. -/
theorem block6_at_flush (hO : Ok m) (c : Dev nD) (t : Fin (cfgM m hO).N) (h7 : t.val % 8 = 7) (y : S1x8x128.Idx) :
    (outsAt0 m hO c t.val t.isLt).1 y = ∑ j : Fin 8, contribS m hO c (pt m hO (rowOf m hO t) j) := by
  have h0 : ¬t.val % 8 = 0 := by omega
  have h2 : t.val % 8 = 7 := h7
  rw [← sum_at_last m hO c t h7]
  by_cases h1 : Meets m hO t
  · rw [outsAt0_E m hO c t h0 h1 h2]
    dsimp only
    rw [out0_E_6_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (tbl m 0) (tbl m 1) (prevS m hO c t) (prevC m hO c t) h1,
      sout0_E_0_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (tbl m 0) (tbl m 1) (prevS m hO c t) (prevC m hO c t) h1, pay5_apply]
  · rw [outsAt0_F m hO c t h0 h1 h2]
    dsimp only
    rw [out0_F_6_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (tbl m 0) (tbl m 1) (prevS m hO c t) (prevC m hO c t) h1, pay5_apply]
    rfl

/-- At a row's last column tile every entry of the counts' output block is the row tile's total count. -/
theorem block7_at_flush (hO : Ok m) (c : Dev nD) (t : Fin (cfgM m hO).N) (h7 : t.val % 8 = 7) (y : S1x8x128.Idx) :
    (outsAt0 m hO c t.val t.isLt).2.1 y = ∑ j : Fin 8, contribC m hO c (pt m hO (rowOf m hO t) j) := by
  have h0 : ¬t.val % 8 = 0 := by omega
  have h2 : t.val % 8 = 7 := h7
  rw [← cnt_at_last m hO c t h7]
  by_cases h1 : Meets m hO t
  · rw [outsAt0_E m hO c t h0 h1 h2]
    dsimp only
    rw [out0_E_7_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (tbl m 0) (tbl m 1) (prevS m hO c t) (prevC m hO c t) h1,
      sout0_E_1_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (tbl m 0) (tbl m 1) (prevS m hO c t) (prevC m hO c t) h1, pay6_apply]
  · rw [outsAt0_F m hO c t h0 h1 h2]
    dsimp only
    rw [out0_F_7_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (tbl m 0) (tbl m 1) (prevS m hO c t) (prevC m hO c t) h1, pay6_apply]
    rfl

end Cert.KernelIdeal.Accum

end
-- ==== Proof.Flush.lean ====
/-
  The kernel's two result arrays after the region: row block `i` of each is written back once, at the row's last
  column tile, and these eight write-backs cover the array — so every entry `(i, a, b)` is row tile `i`'s total.
-/
import proofs.«417551_j53944789238504_3_alg».proof.Proof.Gen.KernelIdeal.Frame
import proofs.«417551_j53944789238504_3_alg».proof.Proof.Pt
import proofs.«417551_j53944789238504_3_alg».proof.Proof.Accum
import Idealize.ShloMosaic.Lib.Pipeline.Value
import Idealize.ShloMosaic.Lib.ValueIdx
import Mathlib.Data.BitVec

set_option maxRecDepth 16384

noncomputable section

open Idealize.ShloMosaic Idealize.ShloMosaic.TcCoe Idealize.SL.Sem
open Idealize.ShloMosaic.Pipeline (Dat)

namespace Cert.KernelIdeal.Flush

open Cert.KernelIdeal Cert.KernelIdeal.Gen Cert.KernelIdeal.Pt Cert.KernelIdeal.Accum
open Idealize.ShloMosaic.ValueIdx (ix2 ix3)

variable (m : (ℓ : Loc nD τ sig) → Buf (Elt Ideal) ℓ)

/-- The blocks of the sums' array: at every grid point the block index on axis 0 is the point's row tile `t / 8`, and 0 on
    the other two axes — whatever the prefetched tables hold (the index map reads none). -/
theorem index6 (a : (pcfg0 (F := Ideal)).Adm) : ∀ t : Fin (cfg0 a).N,
    ((cfg0 a).win 6).index t (0 : Fin 3) = t.val / 8 ∧ ((cfg0 a).win 6).index t (1 : Fin 3) = 0 ∧ ((cfg0 a).win 6).index t (2 : Fin 3) = 0 :=
  (by decide +kernel : ∀ t : Fin grid0.N, cc0_transform_6 (grid0.coords t) (0 : Fin 3) = t.val / 8 ∧ cc0_transform_6 (grid0.coords t) (1 : Fin 3) = 0 ∧ cc0_transform_6 (grid0.coords t) (2 : Fin 3) = 0)

/-- An entry of the sums' array is in point `t`'s block iff each coordinate is in the block's range on its axis. -/
theorem mem_blk6 (a : (pcfg0 (F := Ideal)).Adm) (t : Fin (cfg0 a).N) (y : S8x8x128.Idx) :
    y ∈ (((cfg0 a).win 6).blk t).view.set ↔ ∀ ax : Fin 3, ((cfg0 a).win 6).index t ax * S1x8x128.size ax ≤ (y ax).val ∧ (y ax).val < ((cfg0 a).win 6).index t ax * S1x8x128.size ax + S1x8x128.size ax := by
  show y ∈ ((View.whole main_v33_0).slice (((cfg0 a).win 6).rect t)).set ↔ _
  refine (Eq.to_iff (congrArg (y ∈ ·) (View.set_slice_whole main_v33_0 (((cfg0 a).win 6).rect t)))).trans ?_
  exact Rect.mem_set_unit

/-- Inside point `t`'s block of the sums' array, coordinate 0 of every entry is the point's row tile — whatever the tables hold. -/
theorem emb6_row (a : (pcfg0 (F := Ideal)).Adm) (t : Fin (cfg0 a).N) (y : (((cfg0 a).win 6).xblock (grid0.coords t)).Idx) :
    (((((cfg0 a).win 6).blk t).view.emb y) (0 : Fin 3)).val = t.val / 8 := by
  have h := (index6 a t).1
  show ((cfg0 a).win 6).index t (0 : Fin 3) * 1 + 1 * (y (0 : Fin 3)).val = _
  have hy : (y (0 : Fin 3)).val < 1 := (y (0 : Fin 3)).isLt
  omega

/-- The sums' array as one function of its index: entry `y` is the total of row tile `y 0`. -/
def G6 (hO : Ok m) (c : Dev nD) : Vec Ideal S8x8x128 .f32 :=
  fun y => ∑ j : Fin 8, contribS m hO c (pt m hO ⟨(y 0).val, (y 0).isLt⟩ j)

/-- What a flushing point writes back is its block of that function. -/
theorem flushed6_eq (hO : Ok m) (c : Dev nD) (t : Fin (cfgM m hO).N) (hf : ((cfgM m hO).win 6).flush t = true) :
    (dats m hO 0 c).flushed 6 t = (((cfgM m hO).win 6).blk t).view.read (Elt Ideal) (G6 m hO c) := by
  show ((cfgM m hO).win 6).cut (grid0.coords t) ((dats m hO 0 c).after 6 t) = _
  rw [after0_6]
  have h7 : t.val % 8 = 7 := (flush0_6 (adm m hO) t).mp hf
  funext y
  refine (block6_at_flush m hO c t h7 _).trans ?_
  show _ = G6 m hO c ((((cfgM m hO).win 6).blk t).view.emb y)
  unfold G6
  refine Finset.sum_congr rfl fun j _ => ?_
  refine congrArg (fun r => contribS m hO c (pt m hO r j)) ?_
  exact Fin.ext (emb6_row (adm m hO) t y).symm

/-- Every entry of the sums' array is in the block written back at its row's last column tile. -/
theorem cover6 (hO : Ok m) (y : S8x8x128.Idx) :
    ∃ t : Fin (cfgM m hO).N, ((cfgM m hO).win 6).flush t = true ∧ y ∈ (((cfgM m hO).win 6).blk t).view.set := by
  have hN : (cfgM m hO).N = 64 := N_0
  have h0 : (y 0).val < 8 := (y 0).isLt
  have h1 : (y 1).val < 8 := (y 1).isLt
  have h2 : (y 2).val < 128 := (y 2).isLt
  have hlt : 8 * (y 0).val + 7 < (cfgM m hO).N := by omega
  obtain ⟨e0, e1, e2⟩ := index6 (adm m hO) ⟨8 * (y 0).val + 7, hlt⟩
  have e0' : ((cfgM m hO).win 6).index ⟨8 * (y 0).val + 7, hlt⟩ (0 : Fin 3) = (8 * (y 0).val + 7) / 8 := e0
  have e1' : ((cfgM m hO).win 6).index ⟨8 * (y 0).val + 7, hlt⟩ (1 : Fin 3) = 0 := e1
  have e2' : ((cfgM m hO).win 6).index ⟨8 * (y 0).val + 7, hlt⟩ (2 : Fin 3) = 0 := e2
  refine ⟨⟨8 * (y 0).val + 7, hlt⟩, (flush0_6 (adm m hO) _).mpr (by show (8 * (y 0).val + 7) % 8 = 7; omega), ?_⟩
  rw [mem_blk6 (adm m hO) _ y]
  intro ax
  match ax with
  | ⟨0, _⟩ =>
    show ((cfgM m hO).win 6).index ⟨8 * (y 0).val + 7, hlt⟩ (0 : Fin 3) * 1 ≤ (y 0).val ∧ (y 0).val < ((cfgM m hO).win 6).index ⟨8 * (y 0).val + 7, hlt⟩ (0 : Fin 3) * 1 + 1
    omega
  | ⟨1, _⟩ =>
    show ((cfgM m hO).win 6).index ⟨8 * (y 0).val + 7, hlt⟩ (1 : Fin 3) * 8 ≤ (y 1).val ∧ (y 1).val < ((cfgM m hO).win 6).index ⟨8 * (y 0).val + 7, hlt⟩ (1 : Fin 3) * 8 + 8
    omega
  | ⟨2, _⟩ =>
    show ((cfgM m hO).win 6).index ⟨8 * (y 0).val + 7, hlt⟩ (2 : Fin 3) * 128 ≤ (y 2).val ∧ (y 2).val < ((cfgM m hO).win 6).index ⟨8 * (y 0).val + 7, hlt⟩ (2 : Fin 3) * 128 + 128
    omega

/-- Entry `(i, a, b)` of the first result array (the sums) after the region: row tile `i`'s total. -/
theorem final6 (hO : Ok m) (c : Dev nD) (i : Fin 8) (a : Fin 8) (b : Fin 128) :
    ((dats m hO 0 c).arrAt 6 (cfgM m hO).N : Vec Ideal S8x8x128 .f32) (ix3 i a b)
      = ∑ j : Fin 8, contribS m hO c (pt m hO i j) := by
  have h := (dats m hO 0 c).arrAt_eq_of_cover 6 (G6 m hO c) (fun t hf => flushed6_eq m hO c t hf) (cover6 m hO)
  exact congrFun h (ix3 i a b)

/-- The blocks of the counts' array: at every grid point the block index on axis 0 is the point's row tile `t / 8`, and 0 on
    the other two axes — whatever the prefetched tables hold (the index map reads none). -/
theorem index7 (a : (pcfg0 (F := Ideal)).Adm) : ∀ t : Fin (cfg0 a).N,
    ((cfg0 a).win 7).index t (0 : Fin 3) = t.val / 8 ∧ ((cfg0 a).win 7).index t (1 : Fin 3) = 0 ∧ ((cfg0 a).win 7).index t (2 : Fin 3) = 0 :=
  (by decide +kernel : ∀ t : Fin grid0.N, cc0_transform_7 (grid0.coords t) (0 : Fin 3) = t.val / 8 ∧ cc0_transform_7 (grid0.coords t) (1 : Fin 3) = 0 ∧ cc0_transform_7 (grid0.coords t) (2 : Fin 3) = 0)

/-- An entry of the counts' array is in point `t`'s block iff each coordinate is in the block's range on its axis. -/
theorem mem_blk7 (a : (pcfg0 (F := Ideal)).Adm) (t : Fin (cfg0 a).N) (y : S8x8x128.Idx) :
    y ∈ (((cfg0 a).win 7).blk t).view.set ↔ ∀ ax : Fin 3, ((cfg0 a).win 7).index t ax * S1x8x128.size ax ≤ (y ax).val ∧ (y ax).val < ((cfg0 a).win 7).index t ax * S1x8x128.size ax + S1x8x128.size ax := by
  show y ∈ ((View.whole main_v33_1).slice (((cfg0 a).win 7).rect t)).set ↔ _
  refine (Eq.to_iff (congrArg (y ∈ ·) (View.set_slice_whole main_v33_1 (((cfg0 a).win 7).rect t)))).trans ?_
  exact Rect.mem_set_unit

/-- Inside point `t`'s block of the counts' array, coordinate 0 of every entry is the point's row tile — whatever the tables hold. -/
theorem emb7_row (a : (pcfg0 (F := Ideal)).Adm) (t : Fin (cfg0 a).N) (y : (((cfg0 a).win 7).xblock (grid0.coords t)).Idx) :
    (((((cfg0 a).win 7).blk t).view.emb y) (0 : Fin 3)).val = t.val / 8 := by
  have h := (index7 a t).1
  show ((cfg0 a).win 7).index t (0 : Fin 3) * 1 + 1 * (y (0 : Fin 3)).val = _
  have hy : (y (0 : Fin 3)).val < 1 := (y (0 : Fin 3)).isLt
  omega

/-- The counts' array as one function of its index: entry `y` is the total of row tile `y 0`. -/
def G7 (hO : Ok m) (c : Dev nD) : Vec Ideal S8x8x128 .i32 :=
  fun y => ∑ j : Fin 8, contribC m hO c (pt m hO ⟨(y 0).val, (y 0).isLt⟩ j)

/-- What a flushing point writes back is its block of that function. -/
theorem flushed7_eq (hO : Ok m) (c : Dev nD) (t : Fin (cfgM m hO).N) (hf : ((cfgM m hO).win 7).flush t = true) :
    (dats m hO 0 c).flushed 7 t = (((cfgM m hO).win 7).blk t).view.read (Elt Ideal) (G7 m hO c) := by
  show ((cfgM m hO).win 7).cut (grid0.coords t) ((dats m hO 0 c).after 7 t) = _
  rw [after0_7]
  have h7 : t.val % 8 = 7 := (flush0_7 (adm m hO) t).mp hf
  funext y
  refine (block7_at_flush m hO c t h7 _).trans ?_
  show _ = G7 m hO c ((((cfgM m hO).win 7).blk t).view.emb y)
  unfold G7
  refine Finset.sum_congr rfl fun j _ => ?_
  refine congrArg (fun r => contribC m hO c (pt m hO r j)) ?_
  exact Fin.ext (emb7_row (adm m hO) t y).symm

/-- Every entry of the counts' array is in the block written back at its row's last column tile. -/
theorem cover7 (hO : Ok m) (y : S8x8x128.Idx) :
    ∃ t : Fin (cfgM m hO).N, ((cfgM m hO).win 7).flush t = true ∧ y ∈ (((cfgM m hO).win 7).blk t).view.set := by
  have hN : (cfgM m hO).N = 64 := N_0
  have h0 : (y 0).val < 8 := (y 0).isLt
  have h1 : (y 1).val < 8 := (y 1).isLt
  have h2 : (y 2).val < 128 := (y 2).isLt
  have hlt : 8 * (y 0).val + 7 < (cfgM m hO).N := by omega
  obtain ⟨e0, e1, e2⟩ := index7 (adm m hO) ⟨8 * (y 0).val + 7, hlt⟩
  have e0' : ((cfgM m hO).win 7).index ⟨8 * (y 0).val + 7, hlt⟩ (0 : Fin 3) = (8 * (y 0).val + 7) / 8 := e0
  have e1' : ((cfgM m hO).win 7).index ⟨8 * (y 0).val + 7, hlt⟩ (1 : Fin 3) = 0 := e1
  have e2' : ((cfgM m hO).win 7).index ⟨8 * (y 0).val + 7, hlt⟩ (2 : Fin 3) = 0 := e2
  refine ⟨⟨8 * (y 0).val + 7, hlt⟩, (flush0_7 (adm m hO) _).mpr (by show (8 * (y 0).val + 7) % 8 = 7; omega), ?_⟩
  rw [mem_blk7 (adm m hO) _ y]
  intro ax
  match ax with
  | ⟨0, _⟩ =>
    show ((cfgM m hO).win 7).index ⟨8 * (y 0).val + 7, hlt⟩ (0 : Fin 3) * 1 ≤ (y 0).val ∧ (y 0).val < ((cfgM m hO).win 7).index ⟨8 * (y 0).val + 7, hlt⟩ (0 : Fin 3) * 1 + 1
    omega
  | ⟨1, _⟩ =>
    show ((cfgM m hO).win 7).index ⟨8 * (y 0).val + 7, hlt⟩ (1 : Fin 3) * 8 ≤ (y 1).val ∧ (y 1).val < ((cfgM m hO).win 7).index ⟨8 * (y 0).val + 7, hlt⟩ (1 : Fin 3) * 8 + 8
    omega
  | ⟨2, _⟩ =>
    show ((cfgM m hO).win 7).index ⟨8 * (y 0).val + 7, hlt⟩ (2 : Fin 3) * 128 ≤ (y 2).val ∧ (y 2).val < ((cfgM m hO).win 7).index ⟨8 * (y 0).val + 7, hlt⟩ (2 : Fin 3) * 128 + 128
    omega

/-- Entry `(i, a, b)` of the second result array (the counts) after the region: row tile `i`'s total count. -/
theorem final7 (hO : Ok m) (c : Dev nD) (i : Fin 8) (a : Fin 8) (b : Fin 128) :
    ((dats m hO 0 c).arrAt 7 (cfgM m hO).N : Vec Ideal S8x8x128 .i32) (ix3 i a b)
      = ∑ j : Fin 8, contribC m hO c (pt m hO i j) := by
  have h := (dats m hO 0 c).arrAt_eq_of_cover 7 (G7 m hO c) (fun t hf => flushed7_eq m hO c t hf) (cover7 m hO)
  exact congrFun h (ix3 i a b)

end Cert.KernelIdeal.Flush

end
-- ==== Proof.Tail.lean ====
/-
  The kernel program's run, read down to the region's two result arrays: after the pallas_call the host takes entry
  `(i, 0, 0)` of each row block, sums the eight sums and the eight counts, and finishes as the reference does.
-/
import proofs.«417551_j53944789238504_3_alg».proof.Proof.Gen.KernelIdeal.Frame
import proofs.«417551_j53944789238504_3_alg».proof.Proof.Spec
import Idealize.ShloMosaic.Lib.StableHlo.Run
import Idealize.ShloMosaic.Lib.Pipeline.Value
import Idealize.ShloMosaic.Lib.ValueIdx
import Idealize.ShloMosaic.Lib.ValueIdxRank1
import Idealize.ShloMosaic.Lib.ValueLayout
import Idealize.ShloMosaic.Lib.SortFacts
import Idealize.ShloMosaic.PureOps.Ideal.Laws
import Mathlib.Data.BitVec

set_option maxRecDepth 16384

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.PairRank
open Idealize.ShloMosaic.ValueIdx (ix2 ix3)

variable (m : (ℓ : Loc nD τ sig) → Buf (Elt Ideal) ℓ) (ρ : Dev nD → PrngReg)

/-- The sums' result array after the region, on core `c`. -/
abbrev sums (hO : Ok m) (c : Dev nD) : Vec Ideal S8x8x128 .f32 := (dats m hO 0 c).arrAt 6 (cfgM m hO).N
/-- The counts' result array after the region, on core `c`. -/
abbrev counts (hO : Ok m) (c : Dev nD) : Vec Ideal S8x8x128 .i32 := (dats m hO 0 c).arrAt 7 (cfgM m hO).N

/-! ## The lines after the region, read at the two result arrays -/

/-- Entry `(i, 0, 0)` of each of the eight row blocks, kept as a vector of eight: the corner slice reshaped reads, at `i`,
    the array at `(i, 0, 0)`. -/
theorem first_apply {α : Type} (X : S8x8x128.Idx → α) (i : Fin 8) :
    shapeCast S8 (extractStridedSlice S8x1x1 ![0, 0, 0] X slices_S8x8x128_S8x1x1_0_0_0) shapeCasts_S8x1x1_S8 (ValueIdx.ix1 i)
      = X (ix3 i (0 : Fin 8) (0 : Fin 128)) := by
  refine (shapeCast_apply _ _ (ValueIdx.ix1 i) (ix3 i (0 : Fin 1) (0 : Fin 1)) ?_).trans ?_
  · rw [Shape.rowMajor_val_one, Shape.rowMajor_val_three]
    show (i.val * 1 + 0) * 1 + 0 = i.val
    omega
  · exact extractStridedSlice_apply _ X _ _ (ix3 i (0 : Fin 8) (0 : Fin 128)) (fun a => by
      match a with
      | ⟨0, _⟩ => exact (Nat.zero_add _).symm
      | ⟨1, _⟩ => rfl
      | ⟨2, _⟩ => rfl)

/-- The host's float sum of the eight corner entries, from zero: their sum. -/
theorem rowsum_f (X : Vec Ideal S8x8x128 .f32) :
    Host.reduceAdd (F := Ideal)
        (shapeCast S8 (extractStridedSlice S8x1x1 ![0, 0, 0] X slices_S8x8x128_S8x1x1_0_0_0) shapeCasts_S8x1x1_S8)
        (constant (F := Ideal) S_ .f32 0x00000000#32) reducesTo_S8_S_d0 h_S_
      = fun _ => ∑ i : Fin 8, X (ix3 i (0 : Fin 8) (0 : Fin 128)) := by
  funext j
  show Ideal.hostReduceAdd reducesTo_S8_S_d0 _ (Ideal.ofBits .f32 0x00000000#32) j = _
  rw [Ideal.hostReduceAdd_total _ (fun b => b.elim0), Ideal.ofBits_zero_f32, zero_add,
    ← Equiv.sum_comp (ValueIdx.idxEquiv1 (n := 8)).symm]
  exact Finset.sum_congr rfl fun i _ => first_apply X i

/-- The host's integer sum of the eight corner entries, from zero: their sum. -/
theorem rowsum_i (X : Vec Ideal S8x8x128 .i32) :
    Host.reduce IntOp.addi
        (shapeCast S8 (extractStridedSlice S8x1x1 ![0, 0, 0] X slices_S8x8x128_S8x1x1_0_0_0) shapeCasts_S8x1x1_S8)
        (constantI S_ 32 0#32) reducesTo_S8_S_d0 h_S_
      = fun _ => ∑ i : Fin 8, X (ix3 i (0 : Fin 8) (0 : Fin 128)) := by
  funext j
  rw [Host.reduce_eq_fold, Finset.filter_true_of_mem fun i _ => funext fun b => b.elim0]
  -- the fold of the words' addition from zero over all eight indices is their sum
  refine (Finset.sum_eq_fold (M := BitVec 32) Finset.univ _).symm.trans ?_
  rw [← Equiv.sum_comp (ValueIdx.idxEquiv1 (n := 8)).symm]
  exact Finset.sum_congr rfl fun i _ => first_apply X i

set_option maxHeartbeats 400000 in
/-- THE LINES AFTER THE REGION, from any contents `W`: the result buffer ends at `finish` of the sum of the eight corner
    entries of the sums' array and of the counts' array. -/
theorem tail_apply (W : Valuation τ sig (Elt Ideal)) :
    StableHlo.after (List.flatten [hostOps1, hostOps1_1]) W (Proc.devRef .tc main_v44)
      = finish (fun _ => ∑ i : Fin 8, (W (Proc.devRef .tc main_v33_0) : Vec Ideal S8x8x128 .f32) (ix3 i (0 : Fin 8) (0 : Fin 128)))
          (fun _ => ∑ i : Fin 8, (W (Proc.devRef .tc main_v33_1) : Vec Ideal S8x8x128 .i32) (ix3 i (0 : Fin 8) (0 : Fin 128))) := by
  simp only [Gen.hostOps1, Gen.hostOps1_1, List.flatten_cons, List.flatten_nil, List.append_nil, List.cons_append,
    List.nil_append]
  after_results_simp
  simp only [StableHlo.TRef.ofBuf, StableHlo.TRef.toBuf, cast_eq]
  refine Eq.trans ?_ (congrArg₂ finish (rowsum_f _) (rowsum_i _))
  rfl

/-- The result buffer after the lines that follow the region, on core `c`. -/
theorem tail_v44 (hO : Ok m) (c : Dev nD) :
    Pipeline.afterTail pcfgs (fun _ => adm m hO) (dats m hO) 0 (V0 m) [hostOps1, hostOps1_1] c main_v44
      = finish (fun _ => ∑ i : Fin 8, sums m hO c (ix3 i (0 : Fin 8) (0 : Fin 128)))
          (fun _ => ∑ i : Fin 8, counts m hO c (ix3 i (0 : Fin 8) (0 : Fin 128))) := by
  unfold Pipeline.afterTail
  rw [tail_apply]
  have h6 := Pipeline.withArrays_arr spec0 (launch0 (F := Ideal)).win.arr_inj c (V0 m c)
    (fun w => (dats m hO 0 c).arrAt w (cfgM m hO).N) 6
  have h7 := Pipeline.withArrays_arr spec0 (launch0 (F := Ideal)).win.arr_inj c (V0 m c)
    (fun w => (dats m hO 0 c).arrAt w (cfgM m hO).N) 7
  exact congrArg₂ finish
    (funext fun _ => Finset.sum_congr rfl fun i _ => congrFun h6 (ix3 i (0 : Fin 8) (0 : Fin 128)))
    (funext fun _ => Finset.sum_congr rfl fun i _ => congrFun h7 (ix3 i (0 : Fin 8) (0 : Fin 128)))

/-- Every weakly fair execution of the kernel program ends with its result at `finish` of the eight row sums' sum and the
    eight row counts' sum (each row's read at entry `(i, 0, 0)` of its block), the arguments unchanged. -/
theorem run_value (hO : Ok m) :
    θ_run (defs (F := Ideal)) (onTc (τ := τ) (main (F := Ideal))) ⟨m, fun _ => 0, ρ⟩ (fun r => ∀ c : Dev nD,
      r.2.mem ((c.tc : Thread nD τ).loc main_v44)
          = finish (fun _ => ∑ i : Fin 8, sums m hO c (ix3 i (0 : Fin 8) (0 : Fin 128)))
              (fun _ => ∑ i : Fin 8, counts m hO c (ix3 i (0 : Fin 8) (0 : Fin 128)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  exact (θ_run defs _ _).mono (fun _ h c =>
    ⟨((h c).2 main_v44 (by decide : main_v44 ∈ Pipeline.restRefs sig spec0)).trans (tail_v44 m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c)⟩)
    (run_main m ρ hO)

end Cert.KernelIdeal.Tail

end
-- ==== Proof.Finite.lean ====
/-
  What the precondition says of the predictions: every one of them is a real number.

  The predicate is the conjunction of two "all entries" tests, one per float argument; each test asks, entry by
  entry, whether |x| < +∞. Read on extended reals, |x| = max x (-x) is +∞ at both infinities, so the test holds
  at an entry exactly when that entry is a real number.
-/
import proofs.«417551_j53944789238504_3_alg».proof.Pre_finite_inputs
import proofs.«417551_j53944789238504_3_alg».proof.Proof.Gen.Pre_finite_inputs
import Idealize.ShloMosaic.PureOps.Ideal
import Idealize.ShloMosaic.Lib.ReduceAll
import Idealize.ShloMosaic.Lib.SortFacts

noncomputable section

open Idealize.ShloMosaic

namespace Cert.FiniteInputs

/-- Where the precondition's predicate is all ones on `(x0, x1, x2)`, every entry of `x0` is a real number. -/
theorem preds_real [Cert.Pre_finite_inputs.Facts] (x0 x1 : FVec Ideal Cert.Pre_finite_inputs.S8192 .f32)
    (x2 : IVec Cert.Pre_finite_inputs.S8192 32)
    (h : Cert.Pre_finite_inputs.fn (F := Ideal) x0 x1 x2 = fun _ => 1#1) (a : Fin 8192) :
    ∃ r : ℝ, x0 (Shape.Idx.ofFin a) = (r : EReal) := by
  -- The predicate has rank 0: it has one index, the empty tuple. Read the hypothesis there.
  have hbit := congrFun h (fun d => d.elim0)
  dsimp only [Cert.Pre_finite_inputs.fn] at hbit
  -- A conjunction of two one-bit words is 1 only if both are; the first speaks of `x0`.
  obtain ⟨hfirst, _⟩ := IntOp.andi_eq_one.1 hbit
  -- An "and" over all 8192 entries that comes out 1 met a 1 at every entry, in particular at entry `a`.
  haveI : Subsingleton Cert.Pre_finite_inputs.S_.Idx := ⟨fun p q => funext fun d => d.elim0⟩
  have hentry := Host.reduce_andi_all _ _ _ _ _ hfirst (Shape.Idx.ofFin a)
  -- At entry `a` the test compares |x0 a| with the broadcast constant, whose pattern 0x7F800000 denotes +∞.
  simp only [cmpf, Host.absf, broadcastInDim, constant, Ideal.hostAbsf_def, Ideal.ofBits_def] at hentry
  have hinf : Ideal.ofBits .f32 0x7F800000#32 = (⊤ : EReal) := by simp [Ideal.ofBits, Ideal.ieee]
  generalize x0 (Shape.Idx.ofFin a) = x at hentry ⊢
  have hlt : Ideal.cmp .olt (max x (-x)) (⊤ : EReal) = 1#1 := by rw [← hinf]; exact hentry
  -- max x (-x) < +∞ fails at x = -∞ (since -x = +∞) and at x = +∞; what is left is a real number.
  induction x using EReal.rec with
  | bot => simp [Ideal.cmp] at hlt
  | coe r => exact ⟨r, rfl⟩
  | top => simp [Ideal.cmp] at hlt

end Cert.FiniteInputs

end
-- ==== Proof.KValue.lean ====
/-
  The kernel program's result is the pairwise ranking loss of its argument arrays.

  Each grid point `(i, j)` contributes, when the two tiles' group-id ranges meet, the tile's sum of hinges over its counted
  pairs and the tile's number of counted pairs, read on the SORTED arrays; the rows' totals are summed by the host. Seen
  through the sorting permutation these are the loss's and the count's summands over the original positions, tile by tile,
  with only tiles left out whose ranges do not meet — which hold no pair of equal group ids — so the totals are the plain
  double sums (`tiled_sum_eq`). On real predictions the kernel's hinge `max ((1/2 − p a) + p b) 0` is the reference's
  `max (1/2 − (p a − p b)) 0`.
-/
import proofs.«417551_j53944789238504_3_alg».proof.Defs
import proofs.«417551_j53944789238504_3_alg».proof.Proof.Gen.KernelIdeal.Frame
import proofs.«417551_j53944789238504_3_alg».proof.Proof.Gen.Pre_finite_inputs
import proofs.«417551_j53944789238504_3_alg».proof.Proof.Spec
import proofs.«417551_j53944789238504_3_alg».proof.Proof.TiledSum
import proofs.«417551_j53944789238504_3_alg».proof.Proof.Pt
import proofs.«417551_j53944789238504_3_alg».proof.Proof.Head
import proofs.«417551_j53944789238504_3_alg».proof.Proof.Blocks
import proofs.«417551_j53944789238504_3_alg».proof.Proof.Payload
import proofs.«417551_j53944789238504_3_alg».proof.Proof.Flush
import proofs.«417551_j53944789238504_3_alg».proof.Proof.Tail
import proofs.«417551_j53944789238504_3_alg».proof.Proof.Finite
import Mathlib.Data.BitVec
import Idealize.ShloMosaic.Lib.StableHlo.Predicate

set_option maxRecDepth 16384

noncomputable section

open Idealize.ShloMosaic Idealize.ShloMosaic.TcCoe Idealize.SL.Sem

namespace Cert.KernelIdeal.KValue

open Cert.KernelIdeal Cert.KernelIdeal.Gen Cert.KernelIdeal.Pt Cert.PairRank
open Idealize.ShloMosaic.StableHlo.Predicate (ixP i1q)
open Idealize.ShloMosaic.ValueIdx (ix2 ix3)

variable (m : (ℓ : Loc nD τ sig) → Buf (Elt Ideal) ℓ) (ρ : Dev nD → PrngReg)

/-- The predictions, targets and group ids core `c` is launched with, by position. -/
abbrev preds (c : Dev nD) : Fin 8192 → EReal := fun a => m ((c : Thread nD τ).loc main_arg0) (Shape.Idx.ofFin a)
abbrev targs (c : Dev nD) : Fin 8192 → EReal := fun a => m ((c : Thread nD τ).loc main_arg1) (Shape.Idx.ofFin a)
abbrev gids (c : Dev nD) : Fin 8192 → BitVec 32 := fun a => m ((c : Thread nD τ).loc main_arg2) (Shape.Idx.ofFin a)
/-- The sorting key: the group id as a signed integer. -/
abbrev key (c : Dev nD) : Fin 8192 → ℤ := fun a => (gids m c a).toInt

/-- The tables carry no side condition here: no index map reads them. -/
theorem ok : Ok m := by
  show ok0 (F := Ideal) (tbl m)
  unfold ok0
  trivial

/-- The body's guard at point `(i, j)` says the two tiles' key ranges meet. -/
theorem meets_overlap (hO : Ok m) (c : Dev nD) (i j : Fin 8) :
    Meets m hO (pt m hO i j) ↔ Overlap (key m c) (Head.perm m c) i j := by
  obtain rfl : c = 0 := Subsingleton.elim _ _
  rw [Blocks.meets_iff, Head.tbl_min, Head.tbl_max, Head.tbl_min, Head.tbl_max]
  exact Iff.rfl

/-- A counted pair of a tile is a ranked pair of the original positions behind it. -/
theorem tilePair_iff (hO : Ok m) (c : Dev nD) (i j : Fin 8) (r s : Fin 1024) :
    Payload.TilePair (iblk m hO c 2 (pt m hO i j)) (iblk m hO c 3 (pt m hO i j)) (iblk m hO c 4 (pt m hO i j))
        (iblk m hO c 5 (pt m hO i j)) r s
      ↔ Ranked (targs m c) (gids m c) (Head.perm m c (tileIx i r)) (Head.perm m c (tileIx j s)) := by
  unfold Payload.TilePair Ranked
  rw [Blocks.iblk2, Blocks.iblk3, Blocks.iblk4, Blocks.iblk5, Head.V_v29, Head.V_v30, Head.V_v31, Head.V_v32]

open Classical in
/-- What point `(i, j)` adds to the row's sum, over the original positions. -/
theorem contribS_eq (hO : Ok m) (c : Dev nD) (hfin : ∀ a, ∃ x : ℝ, preds m c a = (x : EReal)) (i j : Fin 8) :
    contribS m hO c (pt m hO i j)
      = if Overlap (key m c) (Head.perm m c) i j then
          ∑ r : Fin 1024, ∑ s : Fin 1024,
            (fun a b => if Ranked (targs m c) (gids m c) a b then max (half - (preds m c a - preds m c b)) 0 else 0)
              (Head.perm m c (tileIx i r)) (Head.perm m c (tileIx j s))
        else 0 := by
  unfold contribS
  by_cases hM : Meets m hO (pt m hO i j)
  · rw [if_pos hM, if_pos ((meets_overlap m hO c i j).mp hM)]
    refine (Payload.pay8_value (iblk m hO c 0 (pt m hO i j)) (iblk m hO c 1 (pt m hO i j)) (iblk m hO c 2 (pt m hO i j)) (iblk m hO c 3 (pt m hO i j)) (iblk m hO c 4 (pt m hO i j)) (iblk m hO c 5 (pt m hO i j))).trans ?_
    refine Finset.sum_congr rfl fun r _ => Finset.sum_congr rfl fun s _ => ?_
    by_cases hT : Payload.TilePair (iblk m hO c 2 (pt m hO i j)) (iblk m hO c 3 (pt m hO i j)) (iblk m hO c 4 (pt m hO i j))
        (iblk m hO c 5 (pt m hO i j)) r s
    · rw [if_pos hT]
      dsimp only
      rw [if_pos ((tilePair_iff m hO c i j r s).mp hT), Blocks.iblk0, Blocks.iblk1, Head.V_v27, Head.V_v28]
      obtain ⟨x, hx⟩ := hfin (Head.perm m c (tileIx i r))
      obtain ⟨y, hy⟩ := hfin (Head.perm m c (tileIx j s))
      show max (half - preds m c (Head.perm m c (tileIx i r)) + preds m c (Head.perm m c (tileIx j s))) 0 = _
      rw [hx, hy]
      exact (hinge_regroup x y).symm
    · rw [if_neg hT]
      dsimp only
      rw [if_neg (fun h => hT ((tilePair_iff m hO c i j r s).mpr h))]
  · rw [if_neg hM, if_neg (fun h => hM ((meets_overlap m hO c i j).mpr h))]

open Classical in
/-- What point `(i, j)` adds to the row's count, over the original positions. -/
theorem contribC_eq (hO : Ok m) (c : Dev nD) (i j : Fin 8) :
    contribC m hO c (pt m hO i j)
      = ((if Overlap (key m c) (Head.perm m c) i j then
          ∑ r : Fin 1024, ∑ s : Fin 1024,
            (fun a b => if Ranked (targs m c) (gids m c) a b then 1 else 0)
              (Head.perm m c (tileIx i r)) (Head.perm m c (tileIx j s))
        else 0 : ℕ) : BitVec 32) := by
  unfold contribC
  by_cases hM : Meets m hO (pt m hO i j)
  · rw [if_pos hM, if_pos ((meets_overlap m hO c i j).mp hM), BitVec.natCast_eq_ofNat]
    refine (Payload.pay9_count (iblk m hO c 2 (pt m hO i j)) (iblk m hO c 3 (pt m hO i j)) (iblk m hO c 4 (pt m hO i j)) (iblk m hO c 5 (pt m hO i j))).trans ?_
    refine congrArg (BitVec.ofNat 32) ?_
    refine Finset.sum_congr rfl fun r _ => Finset.sum_congr rfl fun s _ => ?_
    dsimp only
    by_cases hT : Payload.TilePair (iblk m hO c 2 (pt m hO i j)) (iblk m hO c 3 (pt m hO i j)) (iblk m hO c 4 (pt m hO i j))
        (iblk m hO c 5 (pt m hO i j)) r s
    · rw [if_pos hT, if_pos ((tilePair_iff m hO c i j r s).mp hT)]
    · rw [if_neg hT, if_neg (fun h => hT ((tilePair_iff m hO c i j r s).mpr h))]
  · rw [if_neg hM, if_neg (fun h => hM ((meets_overlap m hO c i j).mpr h))]
    rfl

/-- Unequal keys: unequal group ids, so no ranked pair. -/
theorem not_ranked_of_key_ne (c : Dev nD) (a b : Fin 8192) (h : key m c a ≠ key m c b) : ¬ Ranked (targs m c) (gids m c) a b :=
  fun hr => h (congrArg BitVec.toInt hr.1)

/-- The rows' sums add up to the loss sum. -/
theorem total_sum (hO : Ok m) (c : Dev nD) (hfin : ∀ a, ∃ x : ℝ, preds m c a = (x : EReal)) :
    ∑ i : Fin 8, ∑ j : Fin 8, contribS m hO c (pt m hO i j) = lossSum (preds m c) (targs m c) (gids m c) := by
  classical
  have h := tiled_sum_eq (M := EReal)
    (fun a b => if Ranked (targs m c) (gids m c) a b then max (half - (preds m c a - preds m c b)) 0 else 0)
    (key m c) (Head.perm m c) (Head.perm_bijective m c) (fun a b h => Head.perm_sorted m c a b h)
    (fun a b h => if_neg (not_ranked_of_key_ne m c a b h))
  simp only [contribS_eq m hO c hfin]
  exact h

/-- The rows' counts add up to the number of ranked pairs, as a word. -/
theorem total_count (hO : Ok m) (c : Dev nD) :
    ∑ i : Fin 8, ∑ j : Fin 8, contribC m hO c (pt m hO i j) = BitVec.ofNat 32 (pairCount (targs m c) (gids m c)) := by
  classical
  have h := tiled_sum_eq (M := ℕ) (fun a b => if Ranked (targs m c) (gids m c) a b then 1 else 0)
    (key m c) (Head.perm m c) (Head.perm_bijective m c) (fun a b h => Head.perm_sorted m c a b h)
    (fun a b h => if_neg (not_ranked_of_key_ne m c a b h))
  have hp : pairCount (targs m c) (gids m c)
      = ∑ i : Fin 8, ∑ j : Fin 8, if Overlap (key m c) (Head.perm m c) i j then
          ∑ r : Fin 1024, ∑ s : Fin 1024,
            (fun a b => if Ranked (targs m c) (gids m c) a b then 1 else 0)
              (Head.perm m c (tileIx i r)) (Head.perm m c (tileIx j s)) else 0 := h.symm
  simp only [contribC_eq m hO c]
  rw [← BitVec.natCast_eq_ofNat, hp]
  simp only [Nat.cast_sum]

/-- Every weakly fair execution of the kernel program, from a memory whose predictions are real numbers, ends with its result
    at the loss of its argument arrays, the arguments unchanged. -/
theorem kernel_run (hfin : ∀ (c : Dev nD) (a : Fin 8192), ∃ x : ℝ, preds m c a = (x : EReal)) :
    θ_run (defs (F := Ideal)) (onTc (τ := τ) (main (F := Ideal))) ⟨m, fun _ => 0, ρ⟩ (fun r => ∀ c : Dev nD,
      r.2.mem ((c.tc : Thread nD τ).loc main_v44)
          = Cert.PairRank.result (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run (defs (F := Ideal)) _ _).mono (fun r h c => ⟨(h c).1.trans ?_, (h c).2⟩) (Tail.run_value m ρ (ok m))
  have hs : (fun _ : (⟨0, ![]⟩ : Shape).Idx => ∑ i : Fin 8, Tail.sums m (ok m) c (ix3 i (0 : Fin 8) (0 : Fin 128)))
      = fun _ => lossSum (preds m c) (targs m c) (gids m c) := by
    funext _
    rw [← total_sum m (ok m) c (hfin c)]
    exact Finset.sum_congr rfl fun i _ => Flush.final6 m (ok m) c i 0 0
  have hc : (fun _ : (⟨0, ![]⟩ : Shape).Idx => ∑ i : Fin 8, Tail.counts m (ok m) c (ix3 i (0 : Fin 8) (0 : Fin 128)))
      = fun _ => BitVec.ofNat 32 (pairCount (targs m c) (gids m c)) := by
    funext _
    rw [← total_count m (ok m) c]
    exact Finset.sum_congr rfl fun i _ => Flush.final7 m (ok m) c i 0 0
  unfold Cert.PairRank.result
  exact congrArg₂ finish hs hc

end Cert.KernelIdeal.KValue

end
-- ==== Proof.RefValue.lean ====
/-
  The reference's run, read: its result is the pairwise ranking loss `Cert.PairRank.result` of its three argument arrays.
-/
import proofs.«417551_j53944789238504_3_alg».proof.Defs
import proofs.«417551_j53944789238504_3_alg».proof.Proof.Gen.ReferenceIdeal
import proofs.«417551_j53944789238504_3_alg».proof.Proof.RefRunP
import proofs.«417551_j53944789238504_3_alg».proof.Proof.RefReadP
import proofs.«417551_j53944789238504_3_alg».proof.Proof.Spec
import proofs.«417551_j53944789238504_3_alg».proof.Proof.TiledSum
import Idealize.ShloMosaic.Lib.StableHlo.Predicate
import Idealize.ShloMosaic.Lib.ValueIdx
import Idealize.ShloMosaic.PureOps.Ideal.Laws
import Idealize.ShloMosaic.PureOps.Reduce

noncomputable section

open Idealize.ShloMosaic Idealize.ShloMosaic.TcCoe Idealize.SL.Sem

namespace Cert.ReferenceIdeal.RefValue

open Cert.ReferenceIdeal Cert.ReferenceIdeal.Gen Cert.ReferenceIdeal.Read Cert.PairRank
open Idealize.ShloMosaic.StableHlo.Predicate (ij ixP i1q)

/-! ## Words -/

/-- A fold of word addition over words that are images of naturals is the image of the naturals' sum: the image
    is additive, so no bound on the sum is needed. -/
theorem fold_addi_ofNat {ι : Type} (S : Finset ι) (n : ι → ℕ) :
    S.fold IntOp.addi 0#32 (fun i => BitVec.ofNat 32 (n i)) = BitVec.ofNat 32 (∑ i ∈ S, n i) := by
  induction S using Finset.cons_induction with
  | empty => rfl
  | cons a S ha ih =>
    rw [Finset.fold_cons, Finset.sum_cons, ih, BitVec.ofNat_add]
    rfl

/-- A widened bit is the image of 1 or of 0. -/
theorem setWidth_bit (b : BitVec 1) : b.setWidth 32 = BitVec.ofNat 32 (if b = 1#1 then 1 else 0) := by
  rcases BitVec.eq_zero_or_eq_one b with rfl | rfl <;> rfl

/-- Two positions whose 32-bit words agree are one position: both are below 2³². -/
theorem ofNat_pos_inj (a b : Fin 8192) (h : BitVec.ofNat 32 a.val = BitVec.ofNat 32 b.val) : a = b := by
  have h' := congrArg BitVec.toNat h
  simp only [BitVec.toNat_ofNat] at h'
  apply Fin.ext
  have ha := a.isLt
  have hb := b.isLt
  omega

/-! ## The pair mask, the hinge and the masked hinge at a pair of positions -/

section AtPair
variable (p t : (⟨S8192, .f32⟩ : BufTy).Contents (Elt Ideal)) (d : (⟨S8192, .i32⟩ : BufTy).Contents (Elt Ideal))

/-- The group ids laid along the rows and along the columns, compared: at `(a, b)` the comparison of `d a` with `d b`. -/
theorem same_apply (a b : Fin 8192) :
    val_main_v4 (F := Ideal) d (ij a b) = IntOp.cmpi .eq (d (Shape.Idx.ofFin a)) (d (Shape.Idx.ofFin b)) := by
  rw [val_main_v4_apply]
  congr 1
  · exact StableHlo.Predicate.bcast_rows _ _ d a b
  · exact StableHlo.Predicate.bcast_cols _ _ d a b

/-- The complement of the identity matrix: at `(a, b)` the negated comparison of the two positions' words. -/
theorem offdiag_apply (a b : Fin 8192) :
    val_main_v10 (F := Ideal) (ij a b) = ~~~(IntOp.cmpi .eq (BitVec.ofNat 32 a.val) (BitVec.ofNat 32 b.val)) := by
  rw [val_main_v10_apply, val_main_v9_apply, val_main_v8_apply, val_main_v7_apply, val_main_c_apply, val_main_v5_apply,
    val_main_v6_apply]
  show ~~~(IntOp.cmpi .eq (BitVec.ofNat 32 a.val + 0#32) (BitVec.ofNat 32 b.val)) = _
  rw [BitVec.add_zero]

/-- The targets compared: at `(a, b)` the bit of `t b + eps < t a`. -/
theorem gt_apply (a b : Fin 8192) :
    val_main_v17 (F := Ideal) t (ij a b)
      = BitVec.ofBool (decide (t (Shape.Idx.ofFin b) + eps < t (Shape.Idx.ofFin a))) := by
  rw [val_main_v17_apply]
  have h15 : val_main_v15 (F := Ideal) t (ij a b) = t (Shape.Idx.ofFin a) :=
    StableHlo.Predicate.bcast_rows _ _ t a b
  have h16 : val_main_v16 (F := Ideal) t (ij a b) = t (Shape.Idx.ofFin b) + eps := by
    unfold val_main_v16
    rw [StableHlo.Predicate.bcast_of_row, val_main_v14_apply, val_main_v13_apply, val_main_cst_apply]
    unfold val_main_v12
    rw [StableHlo.Predicate.bcast_row1]
    rfl
  rw [h15, h16]
  rfl

/-- The mask's bit at `(a, b)` is set exactly on the ranked pairs. The mask also asks `a ≠ b`, which a ranked pair
    satisfies by itself: no position is ranked against itself. -/
theorem mask_iff (a b : Fin 8192) :
    val_main_v19 (F := Ideal) t d (ij a b) = 1#1
      ↔ Ranked (fun a => t (Shape.Idx.ofFin a)) (fun a => d (Shape.Idx.ofFin a)) a b := by
  rw [val_main_v19_apply, val_main_v18_apply, same_apply, offdiag_apply, gt_apply, IntOp.andi_eq_one, IntOp.andi_eq_one,
    IntOp.not_eq_one, StableHlo.Predicate.cmpi_eq_iff, StableHlo.Predicate.cmpi_eq_iff,
    StableHlo.Predicate.ofBool_eq_one_iff, decide_eq_true_eq]
  constructor
  · rintro ⟨⟨hd, -⟩, ht⟩
    exact ⟨hd, ht⟩
  · rintro ⟨hd, ht⟩
    refine ⟨⟨hd, fun hab => ?_⟩, ht⟩
    have e : a = b := ofNat_pos_inj a b hab
    subst e
    exact not_ranked_self (fun a => t (Shape.Idx.ofFin a)) (fun a => d (Shape.Idx.ofFin a)) _ ⟨hd, ht⟩

/-- The hinge at `(a, b)`: `max (1/2 − (p a − p b)) 0`. -/
theorem hinge_apply (a b : Fin 8192) :
    val_main_v28 (F := Ideal) p (ij a b)
      = max (half - (p (Shape.Idx.ofFin a) - p (Shape.Idx.ofFin b))) 0 := by
  have h22 : val_main_v22 (F := Ideal) p (ij a b) = p (Shape.Idx.ofFin a) :=
    StableHlo.Predicate.bcast_rows _ _ p a b
  have h23 : val_main_v23 (F := Ideal) p (ij a b) = p (Shape.Idx.ofFin b) :=
    StableHlo.Predicate.bcast_cols _ _ p a b
  rw [val_main_v28_apply, val_main_v26_apply, val_main_v24_apply, h22, h23, val_main_v25_apply, val_main_cst_0_apply,
    val_main_v27_apply, val_main_cst_1_apply]
  show max (half - (p (Shape.Idx.ofFin a) - p (Shape.Idx.ofFin b))) (Ideal.ofBits .f32 0x00000000#32) = _
  rw [Ideal.ofBits_zero_f32]

open Classical in
/-- The masked hinge at `(a, b)`: the hinge on a ranked pair, zero elsewhere. -/
theorem masked_apply (a b : Fin 8192) :
    val_main_v31 (F := Ideal) p t d (ij a b)
      = if Ranked (fun a => t (Shape.Idx.ofFin a)) (fun a => d (Shape.Idx.ofFin a)) a b
        then max (half - (p (Shape.Idx.ofFin a) - p (Shape.Idx.ofFin b))) 0 else 0 := by
  rw [val_main_v31_apply, hinge_apply, val_main_call0_v1_apply, val_main_call0_v0_apply, val_main_cst_3_apply]
  by_cases h : Ranked (fun a => t (Shape.Idx.ofFin a)) (fun a => d (Shape.Idx.ofFin a)) a b
  · rw [if_pos h, (mask_iff t d a b).2 h]
    rfl
  · rw [if_neg h, ValueIdx.eq_zero_of_ne_one (fun h1 => h ((mask_iff t d a b).1 h1)), ValueIdx.select_zero]
    exact Ideal.ofBits_zero_f32

/-! ## The two reductions -/

/-- The float reduction over both axes, from zero, is the loss sum: the sum over all index pairs is the double sum
    over the two positions, and the summand at `(a, b)` is the masked hinge. -/
theorem loss_eq :
    val_main_v32 (F := Ideal) p t d
      = fun _ => lossSum (fun a => p (Shape.Idx.ofFin a)) (fun a => t (Shape.Idx.ofFin a)) (fun a => d (Shape.Idx.ofFin a)) := by
  funext i
  rw [val_main_v32_apply, val_main_cst_4_apply]
  show Ideal.ofBits .f32 0x00000000#32 + _ = _
  rw [Ideal.ofBits_zero_f32, zero_add, ValueIdx.sum_idx2]
  unfold lossSum
  refine Finset.sum_congr rfl fun a _ => Finset.sum_congr rfl fun b _ => ?_
  exact masked_apply p t d a b

/-- The integer reduction over both axes, from zero, is the pair count as a 32-bit word: every index pair reduces
    into the one result, each widened bit is the image of 0 or 1, and the fold of word addition over images of
    naturals is the image of their sum. -/
theorem count_eq :
    val_main_v30 (F := Ideal) t d
      = fun _ => BitVec.ofNat 32 (pairCount (fun a => t (Shape.Idx.ofFin a)) (fun a => d (Shape.Idx.ofFin a))) := by
  classical
  funext i
  unfold val_main_v30
  rw [Host.reduce_eq_fold, val_main_c_2_apply,
    Finset.filter_true_of_mem fun j _ => funext fun b => b.elim0]
  have hw : val_main_v29 (F := Ideal) t d
      = fun j => BitVec.ofNat 32 (if val_main_v19 (F := Ideal) t d j = 1#1 then 1 else 0) :=
    funext fun j => (val_main_v29_apply t d j).trans (setWidth_bit _)
  rw [hw, fold_addi_ofNat, ValueIdx.sum_idx2]
  unfold pairCount
  refine congrArg (BitVec.ofNat 32) ?_
  refine Finset.sum_congr rfl fun a _ => Finset.sum_congr rfl fun b _ => ?_
  exact if_congr (mask_iff t d a b) rfl rfl

/-- The last stage is what both programs do last with the float reduction and the integer reduction, so it is the
    loss of the three arrays. -/
theorem value_eq : val_main_v37 (F := Ideal) p t d = Cert.PairRank.result p t d := by
  unfold Cert.PairRank.result
  rw [← loss_eq p t d, ← count_eq t d]
  rfl

end AtPair

/-- Every weakly fair execution of the reference ends with its result at the loss of its argument arrays, the
    arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v37)
          = Cert.PairRank.result (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono
    (fun _ h c => ⟨(h c).1.trans ((val_main_v37_eq (F := Ideal) _ _ _).trans (value_eq _ _ _)), (h c).2⟩)
    (Cert.ReferenceIdeal.Value.run (F := Ideal) m ρ)

end Cert.ReferenceIdeal.RefValue

end
-- ==== Proof.lean ====
/-
  The certificate of the pairwise ranking loss kernel against its reference.

  The reference sums, over all ordered pairs of the 8192 positions that share a group id and whose targets differ by more
  than `eps`, the hinge `max (1/2 − (p a − p b)) 0`, counts those pairs, and divides. The kernel first sorts the positions by
  group id, then walks the pair space in 8 × 8 tiles of 1024 × 1024 over the sorted order, leaving out a tile when the two
  tiles' id ranges do not meet, accumulating each row's sum and count across its column tiles, and lets the host add the
  eight rows. Both end in the same division. The two results agree on real predictions: the double sums are invariant
  under the sorting permutation, tiles whose id ranges do not meet hold no pair of equal ids, and `(1/2 − x) + y` is
  `1/2 − (x − y)` on the reals.

  Modules: Spec (the loss as mathematics), TiledSum (the rearrangement of the double sum), Finite (real predictions from
  the precondition), Head (what the host's sort and gathers hand the region), Pieces, Accum, Flush (the region's accumulators
  and its two result arrays), Blocks and Payload (one tile's blocks and arithmetic), Tail (the host's last lines),
  KValue (the kernel's result), RefValue over RefRunP / RefReadP (the reference's result).
-/
import proofs.«417551_j53944789238504_3_alg».proof.Defs
import proofs.«417551_j53944789238504_3_alg».proof.Proof.Gen.Kernel
import proofs.«417551_j53944789238504_3_alg».proof.Proof.Gen.Kernel.Skeleton
import proofs.«417551_j53944789238504_3_alg».proof.Proof.Gen.Kernel.Launch
import proofs.«417551_j53944789238504_3_alg».proof.Proof.Gen.Kernel.Points
import proofs.«417551_j53944789238504_3_alg».proof.Proof.Gen.Kernel.Frame
import proofs.«417551_j53944789238504_3_alg».proof.Proof.Gen.KernelIdeal
import proofs.«417551_j53944789238504_3_alg».proof.Proof.Gen.KernelIdeal.Skeleton
import proofs.«417551_j53944789238504_3_alg».proof.Proof.Gen.KernelIdeal.Launch
import proofs.«417551_j53944789238504_3_alg».proof.Proof.Gen.KernelIdeal.Points
import proofs.«417551_j53944789238504_3_alg».proof.Proof.Gen.KernelIdeal.Frame
import proofs.«417551_j53944789238504_3_alg».proof.Proof.Gen.ReferenceIdeal
import proofs.«417551_j53944789238504_3_alg».proof.Proof.Gen.Pre_finite_inputs
import proofs.«417551_j53944789238504_3_alg».proof.Proof.KValue
import proofs.«417551_j53944789238504_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: its index maps read no table, so the tables carry no condition. -/
theorem frame_k : Cert.frame_Kernel := fun m ρ _ =>
  Cert.Kernel.Gen.frame m ρ (by
    show Cert.Kernel.ok0 (F := Bits) (Cert.Kernel.Gen.tbl m)
    unfold Cert.Kernel.ok0
    trivial)

/-- The idealized kernel likewise. -/
theorem frame_ki : Cert.frame_KernelIdeal := fun m ρ _ =>
  Cert.KernelIdeal.Gen.frame m ρ (Cert.KernelIdeal.KValue.ok m)

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefValue.ref_run m ρ)

/-- The ideal pass rewrote nothing. -/
theorem preserves : Cert.preserves_Kernel_KernelIdeal := trivial

/-- Both idealized programs end at the pairwise ranking loss of the shared arguments. -/
theorem algebraic : Cert.algebraic_KernelIdeal_ReferenceIdeal := by
  intro m ρ m' ρ' hpre hagree
  refine ⟨fun c => Cert.PairRank.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.kernel_run m ρ (fun c a => Cert.FiniteInputs.preds_real _ _ _ (hpre c) a), ?_⟩
  refine (θ_run Cert.ReferenceIdeal.defs _ _).mono (fun _ h c => ⟨?_, (h c).2⟩) (Cert.ReferenceIdeal.RefValue.ref_run m' ρ')
  rw [(h c).1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
